-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S_ : Shape := ⟨0, ![]⟩

class Facts : Prop where
  bcast_S_S16384x5x11 : S_.BroadcastsInDim S16384x5x11 (![] : Fin 0 → Fin S16384x5x11.rank)
  reducesTo_S16384x5x11_S_d0_1_2 : S16384x5x11.ReducesTo [0, 1, 2] S_
  h_S_ : 0 < S_.numel
  bcast_S_S64x55 : S_.BroadcastsInDim S64x55 (![] : Fin 0 → Fin S64x55.rank)
  reducesTo_S64x55_S_d0_1 : S64x55.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S220x64 : S_.BroadcastsInDim S220x64 (![] : Fin 0 → Fin S220x64.rank)
  reducesTo_S220x64_S_d0_1 : S220x64.ReducesTo [0, 1] S_
  bcast_S_S220 : S_.BroadcastsInDim S220 (![] : Fin 0 → Fin S220.rank)
  reducesTo_S220_S_d0 : S220.ReducesTo [0] S_
  bcast_S_S16384x1 : S_.BroadcastsInDim S16384x1 (![] : Fin 0 → Fin S16384x1.rank)
  reducesTo_S16384x1_S_d0_1 : S16384x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S220x64 .f32) (main_arg12 : FVec F S220 .f32) (main_arg13 : FVec F S16384x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S220x64 .f32 := Host.absf main_arg11
  let main_cst_20 : FVec F S_ .f32 := constant S_ .f32 0x7F800000#32
  let main_v55 : FVec F S220x64 .f32 := broadcastInDim S220x64 ![] bcast_S_S220x64 main_cst_20
  let main_v56 : IVec S220x64 1 := cmpf .olt main_v54 main_v55
  let main_c_21 : IVec S_ 1 := constantI S_ 1 1#1
  let main_v57 : IVec S_ 1 := (fun x v => Host.reduce IntOp.andi x v reducesTo_S220x64_S_d0_1 h_S_) main_v56 main_c_21
  let main_v58 : IVec S_ 1 := andi main_v53 main_v57
  let main_v59 : FVec F S220 .f32 := Host.absf main_arg12
  let main_cst_22 : FVec F S_ .f32 := constant S_ .f32 0x7F800000#32
  let main_v60 : FVec F S220 .f32 := broadcastInDim S220 ![] bcast_S_S220 main_cst_22
  let main_v61 : IVec S220 1 := cmpf .olt main_v59 main_v60
  let main_c_23 : IVec S_ 1 := constantI S_ 1 1#1
  let main_v62 : IVec S_ 1 := (fun x v => Host.reduce IntOp.andi x v reducesTo_S220_S_d0 h_S_) main_v61 main_c_23
  let main_v63 : IVec S_ 1 := andi main_v58 main_v62
  let main_v64 : FVec F S16384x1 .f32 := Host.absf main_arg13
  let main_cst_24 : FVec F S_ .f32 := constant S_ .f32 0x7F800000#32
  let main_v65 : FVec F S16384x1 .f32 := broadcastInDim S16384x1 ![] bcast_S_S16384x1 main_cst_24
  let main_v66 : IVec S16384x1 1 := cmpf .olt main_v64 main_v65
  let main_c_25 : IVec S_ 1 := constantI S_ 1 1#1
  let main_v67 : IVec S_ 1 := (fun x v => Host.reduce IntOp.andi x v reducesTo_S16384x1_S_d0_1 h_S_) main_v66 main_c_25
  fn_part4 (F := F) main_v63 main_v67

def fn_part2 {F : FTy → Type} [FloatOps F] (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_v48 main_v49 main_v50

def fn_part1 {F : FTy → Type} [FloatOps F] (main_arg4 : FVec F S64 .f32) (main_arg5 : FVec F S2x64 .f32) (main_arg6 : FVec F S2 .f32) (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x5x11 .f32) (main_arg1 : FVec F S64x55 .f32) (main_arg2 : FVec F S64 .f32) (main_arg3 : FVec F S64x64 .f32) (main_arg4 : FVec F S64 .f32) (main_arg5 : FVec F S2x64 .f32) (main_arg6 : FVec F S2 .f32) (main_arg7 : FVec F S128x1 .f32) (main_arg8 : FVec F S128 .f32) (main_arg9 : FVec F S64x128 .f32) (main_arg10 : FVec F S64 .f32) (main_arg11 : FVec F S220x64 .f32) (main_arg12 : FVec F S220 .f32) (main_arg13 : FVec F S16384x1 .f32) : IVec S_ 1 :=
  let main_v0 : FVec F S16384x5x11 .f32 := Host.absf main_arg0
  let main_cst : FVec F S_ .f32 := constant S_ .f32 0x7F800000#32
  let main_v1 : FVec F S16384x5x11 .f32 := broadcastInDim S16384x5x11 ![] bcast_S_S16384x5x11 main_cst
  let main_v2 : IVec S16384x5x11 1 := cmpf .olt main_v0 main_v1
  let main_c : IVec S_ 1 := constantI S_ 1 1#1
  let main_v3 : IVec S_ 1 := (fun x v => Host.reduce IntOp.andi x v reducesTo_S16384x5x11_S_d0_1_2 h_S_) main_v2 main_c
  let main_v4 : FVec F S64x55 .f32 := Host.absf main_arg1
  let main_cst_0 : FVec F S_ .f32 := constant S_ .f32 0x7F800000#32
  let main_v5 : FVec F S64x55 .f32 := broadcastInDim S64x55 ![] bcast_S_S64x55 main_cst_0
  let main_v6 : IVec S64x55 1 := cmpf .olt main_v4 main_v5
  let main_c_1 : IVec S_ 1 := constantI S_ 1 1#1
  let main_v7 : IVec S_ 1 := (fun x v => Host.reduce IntOp.andi x v reducesTo_S64x55_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S16384x55 : Shape := ⟨2, ![16384, 55]⟩
abbrev S55x64 : Shape := ⟨2, ![55, 64]⟩
abbrev S1x64 : Shape := ⟨2, ![1, 64]⟩
abbrev S64x2 : Shape := ⟨2, ![64, 2]⟩
abbrev S1x2 : Shape := ⟨2, ![1, 2]⟩
abbrev S1x128 : Shape := ⟨2, ![1, 128]⟩
abbrev S128x64 : Shape := ⟨2, ![128, 64]⟩
abbrev S64x220 : Shape := ⟨2, ![64, 220]⟩
abbrev S1x220 : Shape := ⟨2, ![1, 220]⟩
abbrev S55x2 : Shape := ⟨2, ![55, 2]⟩
abbrev S16384x220 : Shape := ⟨2, ![16384, 220]⟩
abbrev S512x55 : Shape := ⟨2, ![512, 55]⟩
abbrev S512x1 : Shape := ⟨2, ![512, 1]⟩
abbrev S512x220 : Shape := ⟨2, ![512, 220]⟩
abbrev S512x2 : Shape := ⟨2, ![512, 2]⟩
abbrev S16384x20x11 : Shape := ⟨3, ![16384, 20, 11]⟩

abbrev nBuf : Space → Nat
  | .hbm => 35
  | .vmem => 30
  | .smem => 0
  | _ => 0

abbrev bufTy : (tb : Table) → Fin (tcTables nBuf tb) → BufTy
  | .hbm, ⟨0, _⟩ => ⟨S16384x5x11, .f32⟩
  | .hbm, ⟨1, _⟩ => ⟨S64x55, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S128x1, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S220x64, .f32⟩
  | .hbm, ⟨12, _⟩ => ⟨S220, .f32⟩
  | .hbm, ⟨13, _⟩ => ⟨S16384x1, .f32⟩
  | .hbm, ⟨14, _⟩ => ⟨S16384x55, .f32⟩
  | .hbm, ⟨15, _⟩ => ⟨S55x64, .f32⟩
  | .hbm, ⟨16, _⟩ => ⟨S1x64, .f32⟩
  | .hbm, ⟨17, _⟩ => ⟨S64x64, .f32⟩
  | .hbm, ⟨18, _⟩ => ⟨S1x64, .f32⟩
  | .hbm, ⟨19, _⟩ => ⟨S64x2, .f32⟩
  | .hbm, ⟨20, _⟩ => ⟨S1x2, .f32⟩
  | .hbm, ⟨21, _⟩ => ⟨S1x128, .f32⟩
  | .hbm, ⟨22, _⟩ => ⟨S1x128, .f32⟩
  | .hbm, ⟨23, _⟩ => ⟨S128x64, .f32⟩
  | .hbm, ⟨24, _⟩ => ⟨S1x64, .f32⟩
  | .hbm, ⟨25, _⟩ => ⟨S64x220, .f32⟩
  | .hbm, ⟨26, _⟩ => ⟨S1x220, .f32⟩
  | .hbm, ⟨27, _⟩ => ⟨S55x2, .f32⟩
  | .hbm, ⟨28, _⟩ => ⟨S1x2, .f32⟩
  | .hbm, ⟨29, _⟩ => ⟨S1x220, .f32⟩
  | .hbm, ⟨30, _⟩ => ⟨S1x220, .f32⟩
  | .hbm, ⟨31, _⟩ => ⟨S16384x1, .f32⟩
  | .hbm, ⟨32, _⟩ => ⟨S16384x1, .f32⟩
  | .hbm, ⟨33, _⟩ => ⟨S16384x220, .f32⟩
  | .hbm, ⟨34, _⟩ => ⟨S16384x20x11, .f32⟩
  | .local _ .vmem, ⟨0, _⟩ => ⟨S55x64, .f32⟩
  | .local _ .vmem, ⟨1, _⟩ => ⟨S1x64, .f32⟩
  | .local _ .vmem, ⟨2, _⟩ => ⟨S64x64, .f32⟩
  | .local _ .vmem, ⟨3, _⟩ => ⟨S1x64, .f32⟩
  | .local _ .vmem, ⟨4, _⟩ => ⟨S64x2, .f32⟩
  | .local _ .vmem, ⟨5, _⟩ => ⟨S1x2, .f32⟩
  | .local _ .vmem, ⟨6, _⟩ => ⟨S1x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x220, .f32⟩
  | .local _ .vmem, ⟨11, _⟩ => ⟨S1x220, .f32⟩
  | .local _ .vmem, ⟨12, _⟩ => ⟨S55x2, .f32⟩
  | .local _ .vmem, ⟨13, _⟩ => ⟨S1x2, .f32⟩
  | .local _ .vmem, ⟨14, _⟩ => ⟨S1x220, .f32⟩
  | .local _ .vmem, ⟨15, _⟩ => ⟨S1x220, .f32⟩
  | .local _ .vmem, ⟨16, _⟩ => ⟨S512x55, .f32⟩
  | .local _ .vmem, ⟨17, _⟩ => ⟨S512x55, .f32⟩
  | .local _ .vmem, ⟨18, _⟩ => ⟨S512x1, .f32⟩
  | .local _ .vmem, ⟨19, _⟩ => ⟨S512x1, .f32⟩
  | .local _ .vmem, ⟨20, _⟩ => ⟨S55x2, .f32⟩
  | .local _ .vmem, ⟨21, _⟩ => ⟨S1x2, .f32⟩
  | .local _ .vmem, ⟨22, _⟩ => ⟨S1x220, .f32⟩
  | .local _ .vmem, ⟨23, _⟩ => ⟨S1x220, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x220, .f32⟩
  | .local _ .vmem, ⟨29, _⟩ => ⟨S512x220, .f32⟩
  | _, _ => ⟨S16384x5x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v15 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := .none

abbrev stage0_0 : Fin 1 → Memref sig .tc .vmem S55x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x220 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x220 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S55x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x220 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x220 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x55 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S55x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x220 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x220 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x220 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S16384x5x11_S16384x55 : S16384x5x11.ShapeCasts S16384x55
  transposes_S64x55_S55x64_1_0 : S64x55.Transposes [1, 0] S55x64
  bcast_S64_S1x64_1 : S64.BroadcastsInDim S1x64 (![1] : Fin 1 → Fin S1x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  shapeCasts_S128x1_S1x128 : S128x1.ShapeCasts S1x128
  bcast_S128_S1x128_1 : S128.BroadcastsInDim S1x128 (![1] : Fin 1 → Fin S1x128.rank)
  transposes_S64x128_S128x64_1_0 : S64x128.Transposes [1, 0] S128x64
  transposes_S220x64_S64x220_1_0 : S220x64.Transposes [1, 0] S64x220
  bcast_S220_S1x220_1 : S220.BroadcastsInDim S1x220 (![1] : Fin 1 → Fin S1x220.rank)
  inb_S55x64_S55x64_0_0 : ∀ a, (![0, 0] : Fin 2 → Nat) a + S55x64.size a ≤ S55x64.size a
  h_S55x64 : 0 < S55x64.numel
  shapeCasts_S55x64_S55x64 : S55x64.ShapeCasts S55x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S55x2_S55x2_0_0 : ∀ a, (![0, 0] : Fin 2 → Nat) a + S55x2.size a ≤ S55x2.size a
  h_S55x2 : 0 < S55x2.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x220_S64x220_0_0 : ∀ a, (![0, 0] : Fin 2 → Nat) a + S64x220.size a ≤ S64x220.size a
  h_S64x220 : 0 < S64x220.numel
  shapeCasts_S64x220_S64x220 : S64x220.ShapeCasts S64x220
  inb_S1x220_S1x220_0_0 : ∀ a, (![0, 0] : Fin 2 → Nat) a + S1x220.size a ≤ S1x220.size a
  h_S1x220 : 0 < S1x220.numel
  shapeCasts_S1x220_S1x220 : S1x220.ShapeCasts S1x220
  inb_S512x55_S512x55_0_0 : ∀ a, (![0, 0] : Fin 2 → Nat) a + S512x55.size a ≤ S512x55.size a
  h_S512x55 : 0 < S512x55.numel
  shapeCasts_S512x55_S512x55 : S512x55.ShapeCasts S512x55
  shapeCasts_S55x2_S55x2 : S55x2.ShapeCasts S55x2
  broadcasts_S1x2_S512x2 : S1x2.Broadcasts S512x2
  slices_S512x2_o0_0_S512x1 : S512x2.Slices ![0, 0] S512x1
  slices_S512x2_o0_1_S512x1 : S512x2.Slices ![0, 1] S512x1
  inb_S512x1_S512x1_0_0 : ∀ a, (![0, 0] : Fin 2 → Nat) a + S512x1.size a ≤ S512x1.size a
  h_S512x1 : 0 < S512x1.numel
  broadcasts_S512x1_S512x220 : S512x1.Broadcasts S512x220
  broadcasts_S1x220_S512x220 : S1x220.Broadcasts S512x220
  inb_S512x220_S512x220_0_0 : ∀ a, (![0, 0] : Fin 2 → Nat) a + S512x220.size a ≤ S512x220.size a
  h_S512x220 : 0 < S512x220.numel
  shapeCasts_S16384x220_S16384x20x11 : S16384x220.ShapeCasts S16384x20x11
  dot_S55x64_S64x64_S55x64_1_0_0_1_n_n_wf : DotDims.WF S55x64 S64x64 S55x64 [1] [0] [0] [1] [] []
  dot_S55x64_S64x2_S55x2_1_0_0_1_n_n_wf : DotDims.WF S55x64 S64x2 S55x2 [1] [0] [0] [1] [] []
  dot_S1x64_S64x64_S1x64_1_0_0_1_n_n_wf : DotDims.WF S1x64 S64x64 S1x64 [1] [0] [0] [1] [] []
  dot_S1x64_S64x2_S1x2_1_0_0_1_n_n_wf : DotDims.WF S1x64 S64x2 S1x2 [1] [0] [0] [1] [] []
  dot_S1x128_S128x64_S1x64_1_0_0_1_n_n_wf : DotDims.WF S1x128 S128x64 S1x64 [1] [0] [0] [1] [] []
  dot_S1x64_S64x220_S1x220_1_0_0_1_n_n_wf : DotDims.WF S1x64 S64x220 S1x220 [1] [0] [0] [1] [] []
  dot_S512x55_S55x2_S512x2_1_0_0_1_n_n_wf : DotDims.WF S512x55 S55x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x55.size a ≤ S16384x55.size a
  hwx1_0 : ∀ i : grid1.Coords, EltTy.bits .f32 = 32 ∨ (Rect.block (s := S16384x55) S512x55.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .f32 = 32 ∨ (Rect.block (s := S16384x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S55x2.size a ≤ S55x2.size a
  hwx1_2 : ∀ i : grid1.Coords, EltTy.bits .f32 = 32 ∨ (Rect.block (s := S55x2) S55x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x220.size a ≤ S1x220.size a
  hwx1_4 : ∀ i : grid1.Coords, EltTy.bits .f32 = 32 ∨ (Rect.block (s := S1x220) S1x220.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x220.size a ≤ S1x220.size a
  hwx1_5 : ∀ i : grid1.Coords, EltTy.bits .f32 = 32 ∨ (Rect.block (s := S1x220) S1x220.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S16384x1.size a
  hwx1_6 : ∀ i : grid1.Coords, EltTy.bits .f32 = 32 ∨ (Rect.block (s := S16384x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S16384x1.size a
  hwx1_7 : ∀ i : grid1.Coords, EltTy.bits .f32 = 32 ∨ (Rect.block (s := S16384x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x220.size a ≤ S16384x220.size a
  hwx1_8 : ∀ i : grid1.Coords, EltTy.bits .f32 = 32 ∨ (Rect.block (s := S16384x220) S512x220.size (cc1_transform_8 i) (hinb1_8 i)).WholeWords (EltTy.packing .f32)

variable [Facts₀]

def dot_S55x64_S64x64_S55x64_1_0_0_1_n_n : DotDims S55x64 S64x64 S55x64 where
  lhsContracting := [1]
  rhsContracting := [0]
  lhsNonContracting := [0]
  rhsNonContracting := [1]
  lhsBatch := []
  rhsBatch := []
  wf := dot_S55x64_S64x64_S55x64_1_0_0_1_n_n_wf
def dot_S55x64_S64x2_S55x2_1_0_0_1_n_n : DotDims S55x64 S64x2 S55x2 where
  lhsContracting := [1]
  rhsContracting := [0]
  lhsNonContracting := [0]
  rhsNonContracting := [1]
  lhsBatch := []
  rhsBatch := []
  wf := dot_S55x64_S64x2_S55x2_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x220_S1x220_1_0_0_1_n_n : DotDims S1x64 S64x220 S1x220 where
  lhsContracting := [1]
  rhsContracting := [0]
  lhsNonContracting := [0]
  rhsNonContracting := [1]
  lhsBatch := []
  rhsBatch := []
  wf := dot_S1x64_S64x220_S1x220_1_0_0_1_n_n_wf
def dot_S512x55_S55x2_S512x2_1_0_0_1_n_n : DotDims S512x55 S55x2 S512x2 where
  lhsContracting := [1]
  rhsContracting := [0]
  lhsNonContracting := [0]
  rhsNonContracting := [1]
  lhsBatch := []
  rhsBatch := []
  wf := dot_S512x55_S55x2_S512x2_1_0_0_1_n_n_wf

abbrev win0_0 : Pipeline.Window sig grid0 :=
  Pipeline.Window.whole (Memref.whole main_v1) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v4) false false (stage0_3 0) (sem0_3 0) (Memref.isWhole_whole _) (hstage0_3 0)

abbrev win0_4 : Pipeline.Window sig grid0 :=
  Pipeline.Window.whole (Memref.whole main_v5) false false (stage0_4 0) (sem0_4 0) (Memref.isWhole_whole _) (hstage0_4 0)

abbrev win0_5 : Pipeline.Window sig grid0 :=
  Pipeline.Window.whole (Memref.whole main_v6) false false (stage0_5 0) (sem0_5 0) (Memref.isWhole_whole _) (hstage0_5 0)

abbrev win0_6 : Pipeline.Window sig grid0 :=
  Pipeline.Window.whole (Memref.whole main_v7) false false (stage0_6 0) (sem0_6 0) (Memref.isWhole_whole _) (hstage0_6 0)

abbrev win0_7 : Pipeline.Window sig grid0 :=
  Pipeline.Window.whole (Memref.whole main_v8) false false (stage0_7 0) (sem0_7 0) (Memref.isWhole_whole _) (hstage0_7 0)

abbrev win0_8 : Pipeline.Window sig grid0 :=
  Pipeline.Window.whole (Memref.whole main_v9) false false (stage0_8 0) (sem0_8 0) (Memref.isWhole_whole _) (hstage0_8 0)

abbrev win0_9 : Pipeline.Window sig grid0 :=
  Pipeline.Window.whole (Memref.whole main_v10) false false (stage0_9 0) (sem0_9 0) (Memref.isWhole_whole _) (hstage0_9 0)

abbrev win0_10 : Pipeline.Window sig grid0 :=
  Pipeline.Window.whole (Memref.whole main_v11) false false (stage0_10 0) (sem0_10 0) (Memref.isWhole_whole _) (hstage0_10 0)

abbrev win0_11 : Pipeline.Window sig grid0 :=
  Pipeline.Window.whole (Memref.whole main_v12) false false (stage0_11 0) (sem0_11 0) (Memref.isWhole_whole _) (hstage0_11 0)

abbrev win0_12 : Pipeline.Window sig grid0 :=
  Pipeline.Window.whole (Memref.whole main_v13_0) true false (stage0_12 0) (sem0_12 0) (Memref.isWhole_whole _) (hstage0_12 0)

abbrev win0_13 : Pipeline.Window sig grid0 :=
  Pipeline.Window.whole (Memref.whole main_v13_1) true false (stage0_13 0) (sem0_13 0) (Memref.isWhole_whole _) (hstage0_13 0)

abbrev win0_14 : Pipeline.Window sig grid0 :=
  Pipeline.Window.whole (Memref.whole main_v13_2) true false (stage0_14 0) (sem0_14 0) (Memref.isWhole_whole _) (hstage0_14 0)

abbrev win0_15 : Pipeline.Window sig grid0 :=
  Pipeline.Window.whole (Memref.whole main_v13_3) true false (stage0_15 0) (sem0_15 0) (Memref.isWhole_whole _) (hstage0_15 0)

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v0) S512x55.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S55x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_2) S1x220.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13_3) S1x220.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v14_2) S512x220.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x5x11 : Shape := ⟨3, ![16384, 5, 11]⟩
abbrev S64x55 : Shape := ⟨2, ![64, 55]⟩
abbrev S64 : Shape := ⟨1, ![64]⟩
abbrev S64x64 : Shape := ⟨2, ![64, 64]⟩
abbrev S2x64 : Shape := ⟨2, ![2, 64]⟩
abbrev S2 : Shape := ⟨1, ![2]⟩
abbrev S128x1 : Shape := ⟨2, ![128, 1]⟩
abbrev S128 : Shape := ⟨1, ![128]⟩
abbrev S64x128 : Shape := ⟨2, ![64, 128]⟩
abbrev S220x64 : Shape := ⟨2, ![220, 64]⟩
abbrev S220 : Shape := ⟨1, ![220]⟩
abbrev S16384x1 : Shape := ⟨2, ![16384, 1]⟩
abbrev S16384x55 : Shape := ⟨2, ![16384, 55]⟩
abbrev S55x64 : Shape := ⟨2, ![55, 64]⟩
abbrev S16384x64 : Shape := ⟨2, ![16384, 64]⟩
abbrev S1x64 : Shape := ⟨2, ![1, 64]⟩
abbrev S_ : Shape := ⟨0, ![]⟩
abbrev S64x2 : Shape := ⟨2, ![64, 2]⟩
abbrev S16384x2 : Shape := ⟨2, ![16384, 2]⟩
abbrev S1x2 : Shape := ⟨2, ![1, 2]⟩
abbrev S1x128 : Shape := ⟨2, ![1, 128]⟩
abbrev S16384x128 : Shape := ⟨2, ![16384, 128]⟩
abbrev S128x64 : Shape := ⟨2, ![128, 64]⟩
abbrev S64x220 : Shape := ⟨2, ![64, 220]⟩
abbrev S16384x220 : Shape := ⟨2, ![16384, 220]⟩
abbrev S1x220 : Shape := ⟨2, ![1, 220]⟩
abbrev S16384x20x11 : Shape := ⟨3, ![16384, 20, 11]⟩

abbrev nBuf : Space → Nat
  | .hbm => 79
  | .vmem => 0
  | .smem => 0
  | _ => 0

abbrev bufTy : (tb : Table) → Fin (tcTables nBuf tb) → BufTy
  | .hbm, ⟨0, _⟩ => ⟨S16384x5x11, .f32⟩
  | .hbm, ⟨1, _⟩ => ⟨S64x55, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S128x1, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S220x64, .f32⟩
  | .hbm, ⟨12, _⟩ => ⟨S220, .f32⟩
  | .hbm, ⟨13, _⟩ => ⟨S16384x1, .f32⟩
  | .hbm, ⟨14, _⟩ => ⟨S16384x55, .f32⟩
  | .hbm, ⟨15, _⟩ => ⟨S55x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S64x64, .f32⟩
  | .hbm, ⟨28, _⟩ => ⟨S16384x64, .f32⟩
  | .hbm, ⟨29, _⟩ => ⟨S1x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .i1⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S64x2, .f32⟩
  | .hbm, ⟨40, _⟩ => ⟨S16384x2, .f32⟩
  | .hbm, ⟨41, _⟩ => ⟨S1x2, .f32⟩
  | .hbm, ⟨42, _⟩ => ⟨S16384x2, .f32⟩
  | .hbm, ⟨43, _⟩ => ⟨S16384x2, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S1x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S_, .f32⟩
  | .hbm, ⟨54, _⟩ => ⟨S16384x128, .f32⟩
  | .hbm, ⟨55, _⟩ => ⟨S16384x128, .i1⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S128x64, .f32⟩
  | .hbm, ⟨61, _⟩ => ⟨S16384x64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384x64, .f32⟩
  | .hbm, ⟨67, _⟩ => ⟨S16384x64, .i1⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S64x220, .f32⟩
  | .hbm, ⟨73, _⟩ => ⟨S16384x220, .f32⟩
  | .hbm, ⟨74, _⟩ => ⟨S1x220, .f32⟩
  | .hbm, ⟨75, _⟩ => ⟨S16384x220, .f32⟩
  | .hbm, ⟨76, _⟩ => ⟨S16384x220, .f32⟩
  | .hbm, ⟨77, _⟩ => ⟨S16384x20x11, .f32⟩
  | .hbm, ⟨78, _⟩ => ⟨S16384x1, .f32⟩
  | _, _ => ⟨S16384x5x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  shapeCasts_S16384x5x11_S16384x55 : S16384x5x11.ShapeCasts S16384x55
  transposes_S64x55_S55x64_1_0 : S64x55.Transposes [1, 0] S55x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  slices_S16384x2_S16384x1_0_0 : S16384x2.Slices ![0, 0] S16384x1
  slices_S16384x2_S16384x1_0_1 : S16384x2.Slices ![0, 1] S16384x1
  transposes_S128x1_S1x128_1_0 : S128x1.Transposes [1, 0] S1x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S64x128_S128x64_1_0 : S64x128.Transposes [1, 0] S128x64
  transposes_S220x64_S64x220_1_0 : S220x64.Transposes [1, 0] S64x220
  bcast_S220_S1x220_1 : S220.BroadcastsInDim S1x220 (![1] : Fin 1 → Fin S1x220.rank)
  bcast_S1x220_S16384x220_0_1 : S1x220.BroadcastsInDim S16384x220 (![0, 1] : Fin 2 → Fin S16384x220.rank)
  shapeCasts_S16384x220_S16384x20x11 : S16384x220.ShapeCasts S16384x20x11
  dot_S16384x55_S55x64_S16384x64_1_0_0_1_n_n_wf : DotDims.WF S16384x55 S55x64 S16384x64 [1] [0] [0] [1] [] []
  dot_S16384x64_S64x64_S16384x64_1_0_0_1_n_n_wf : DotDims.WF S16384x64 S64x64 S16384x64 [1] [0] [0] [1] [] []
  dot_S16384x64_S64x2_S16384x2_1_0_0_1_n_n_wf : DotDims.WF S16384x64 S64x2 S16384x2 [1] [0] [0] [1] [] []
  dot_S16384x1_S1x128_S16384x128_1_0_0_1_n_n_wf : DotDims.WF S16384x1 S1x128 S16384x128 [1] [0] [0] [1] [] []
  dot_S16384x128_S128x64_S16384x64_1_0_0_1_n_n_wf : DotDims.WF S16384x128 S128x64 S16384x64 [1] [0] [0] [1] [] []
  dot_S16384x64_S64x220_S16384x220_1_0_0_1_n_n_wf : DotDims.WF S16384x64 S64x220 S16384x220 [1] [0] [0] [1] [] []

variable [Facts₀]

def dot_S16384x55_S55x64_S16384x64_1_0_0_1_n_n : DotDims S16384x55 S55x64 S16384x64 where
  lhsContracting := [1]
  rhsContracting := [0]
  lhsNonContracting := [0]
  rhsNonContracting := [1]
  lhsBatch := []
  rhsBatch := []
  wf := dot_S16384x55_S55x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x2_S16384x2_1_0_0_1_n_n : DotDims S16384x64 S64x2 S16384x2 where
  lhsContracting := [1]
  rhsContracting := [0]
  lhsNonContracting := [0]
  rhsNonContracting := [1]
  lhsBatch := []
  rhsBatch := []
  wf := dot_S16384x64_S64x2_S16384x2_1_0_0_1_n_n_wf
def dot_S16384x1_S1x128_S16384x128_1_0_0_1_n_n : DotDims S16384x1 S1x128 S16384x128 where
  lhsContracting := [1]
  rhsContracting := [0]
  lhsNonContracting := [0]
  rhsNonContracting := [1]
  lhsBatch := []
  rhsBatch := []
  wf := dot_S16384x1_S1x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x220_S16384x220_1_0_0_1_n_n : DotDims S16384x64 S64x220 S16384x220 where
  lhsContracting := [1]
  rhsContracting := [0]
  lhsNonContracting := [0]
  rhsNonContracting := [1]
  lhsBatch := []
  rhsBatch := []
  wf := dot_S16384x64_S64x220_S16384x220_1_0_0_1_n_n_wf

class Facts : Prop extends Facts₀ where

variable [Facts]
-- ==== Proof.Spec.lean ====
/-
  What the two programs compute, index by index, on the extended reals.

  Both apply two chains of three affine layers (the activation between the layers has slope one on both sides of
  zero, so it is the identity). The arrays named here are the ones both programs hold in memory before any
  product is taken: the flattened input `xf` (16384 × 55), the transposed weights `W1T` (55 × 64), `W2T` (64 × 64),
  `W3T` (64 × 2), `R1T` (1 × 128), `R2T` (128 × 64), `R3T` (64 × 220), the offsets as one-row matrices, and the
  noise column `e` (16384 × 1).

  * `seqZ`, `seqP`: the layers applied one after the other to a row of the input (the reference's order).
  * `foldM`, `foldA`, `foldC`, `foldD`: the composed weights and offsets — `M = (W1T·W2T)·W3T`,
    `a = (b1·W2T + b2)·W3T + b3`, `C = (R1T·R2T)·R3T`, `d = (c1·R2T + c2)·R3T + c3` — as small arrays.
  * `zrow`, `outMean`, `outStd`, `outProd`: the composed maps applied once to a row: `z = xf·M + a`, the mean
    `z₀`, `exp z₁`, and `(z₀ + z₁·e)·C + d`.
-/
import Idealize.ShloMosaic.PureOps.Ideal
import Idealize.ShloMosaic.Lib.ValueIdx

noncomputable section

namespace Cert.Spec

open Idealize.ShloMosaic Idealize.ShloMosaic.ValueIdx

/-- A matrix of extended reals over a literal shape. -/
abbrev A2 (a b : Nat) : Type := (⟨2, ![a, b]⟩ : Shape).Idx → EReal

/-! ## The composed weights -/

/-- `M = (W1T · W2T) · W3T`, 55 × 2. -/
def foldM (W1T : A2 55 64) (W2T : A2 64 64) (W3T : A2 64 2) : A2 55 2 := fun y =>
  ∑ k : Fin 64, (∑ j : Fin 64, W1T (ix2 (y 0) j) * W2T (ix2 j k)) * W3T (ix2 k (y 1))

/-- `a = (b1 · W2T + b2) · W3T + b3`, 1 × 2. -/
def foldA (b1r : A2 1 64) (W2T : A2 64 64) (b2r : A2 1 64) (W3T : A2 64 2) (b3r : A2 1 2) : A2 1 2 := fun y =>
  (∑ k : Fin 64, ((∑ j : Fin 64, b1r (ix2 (y 0) j) * W2T (ix2 j k)) + b2r (ix2 (y 0) k)) * W3T (ix2 k (y 1)))
    + b3r (ix2 (y 0) (y 1))

/-- `C = (R1T · R2T) · R3T`, 1 × 220. -/
def foldC (R1T : A2 1 128) (R2T : A2 128 64) (R3T : A2 64 220) : A2 1 220 := fun y =>
  ∑ k : Fin 64, (∑ j : Fin 128, R1T (ix2 (y 0) j) * R2T (ix2 j k)) * R3T (ix2 k (y 1))

/-- `d = (c1 · R2T + c2) · R3T + c3`, 1 × 220. -/
def foldD (c1r : A2 1 128) (R2T : A2 128 64) (c2r : A2 1 64) (R3T : A2 64 220) (c3r : A2 1 220) : A2 1 220 := fun y =>
  (∑ k : Fin 64, ((∑ j : Fin 128, c1r (ix2 (y 0) j) * R2T (ix2 j k)) + c2r (ix2 (y 0) k)) * R3T (ix2 k (y 1)))
    + c3r (ix2 (y 0) (y 1))

/-! ## The composed maps applied to a row -/

/-- `z = xf · M + a` at row `b`, column `n`. -/
def zrow (xf : A2 16384 55) (M : A2 55 2) (a : A2 1 2) (b : Fin 16384) (n : Fin 2) : EReal :=
  (∑ i : Fin 55, xf (ix2 b i) * M (ix2 i n)) + a (ix2 0 n)

/-- The mean: column 0 of `z`. -/
def outMean (xf : A2 16384 55) (M : A2 55 2) (a : A2 1 2) : A2 16384 1 := fun y => zrow xf M a (y 0) 0

/-- The exponential of column 1 of `z`. -/
def outStd (xf : A2 16384 55) (M : A2 55 2) (a : A2 1 2) : A2 16384 1 := fun y => Ideal.exp (zrow xf M a (y 0) 1)

/-- The sample `z₀ + z₁ · e` of a row. -/
def sample (xf : A2 16384 55) (e : A2 16384 1) (M : A2 55 2) (a : A2 1 2) (b : Fin 16384) : EReal :=
  zrow xf M a b 0 + zrow xf M a b 1 * e (ix2 b 0)

/-- The decoded row: `sample · C + d`, 16384 × 220. -/
def outProd (xf : A2 16384 55) (e : A2 16384 1) (M : A2 55 2) (a : A2 1 2) (C d : A2 1 220) : A2 16384 220 := fun y =>
  sample xf e M a (y 0) * C (ix2 0 (y 1)) + d (ix2 0 (y 1))

/-! ## The layers applied one after the other -/

/-- Three layers applied to row `b` of `xf`: `((xf·W1T + b1)·W2T + b2)·W3T + b3` at column `n`. -/
def seqZ (xf : A2 16384 55) (W1T : A2 55 64) (b1r : A2 1 64) (W2T : A2 64 64) (b2r : A2 1 64) (W3T : A2 64 2)
    (b3r : A2 1 2) (b : Fin 16384) (n : Fin 2) : EReal :=
  (∑ k : Fin 64, ((∑ j : Fin 64, ((∑ i : Fin 55, xf (ix2 b i) * W1T (ix2 i j)) + b1r (ix2 0 j)) * W2T (ix2 j k))
    + b2r (ix2 0 k)) * W3T (ix2 k n)) + b3r (ix2 0 n)

/-- Three layers applied to the one-entry row `s`: `((s·R1T + c1)·R2T + c2)·R3T + c3` at column `o`. -/
def seqP (s : Fin 1 → EReal) (R1T : A2 1 128) (c1r : A2 1 128) (R2T : A2 128 64) (c2r : A2 1 64) (R3T : A2 64 220)
    (c3r : A2 1 220) (o : Fin 220) : EReal :=
  (∑ k : Fin 64, ((∑ j : Fin 128, ((∑ i : Fin 1, s i * R1T (ix2 i j)) + c1r (ix2 0 j)) * R2T (ix2 j k))
    + c2r (ix2 0 k)) * R3T (ix2 k o)) + c3r (ix2 0 o)

end Cert.Spec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KFold.lean ====
/-
  The first kernel region's value.

  The region has one point and every block is a whole array. It composes the weights with eight plain matrix products
  into zero arrays: M = (W1T · W2T) · W3T, a = (b1 · W2T + b2) · W3T + b3, C = (R1T · R2T) · R3T and
  d = (c1 · R2T + c2) · R3T + c3. A plain product into a zero array read at an entry is the sum over the shared axis
  of the products of the entries, so each stored array is the specification's function of the staged arrays.
-/
import proofs.«109162_g39084202394388_cont_8to1_b_76_2_alg».proof.Proof.Gen.KernelIdeal.Frame
import proofs.«109162_g39084202394388_cont_8to1_b_76_2_alg».proof.Proof.Spec
import proofs.«109162_g39084202394388_cont_8to1_b_76_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.FoldValue

open Cert.KernelIdeal Cert.KernelIdeal.Gen Idealize.ShloMosaic Idealize.ShloMosaic.TcCoe Idealize.SL.Sem Idealize.ShloMosaic.ValueIdx

/-! # The first kernel region's value

The region composes weight matrices: from its twelve staged arrays it writes `M = (W1T · W2T) · W3T`,
`a = (b1 · W2T + b2) · W3T + b3`, `C = (R1T · R2T) · R3T` and `d = (c1 · R2T + c2) · R3T + c3`. It has one point and
every window's block is its whole array, so each output array ends holding what the one point stores: a chain of plain
matrix products into zero arrays and entrywise sums, read entry by entry as nested finite sums over the contracted
indices. -/

/-- The two zero offsets of a whole-block rectangle are the zero function. -/
theorem hz : (![0, 0] : Fin 2 → Nat) = fun _ => 0 := funext fun a => by fin_cases a <;> rfl

/-! ## The stored values at an entry

Each stored value is a chain of plain matrix products into zero arrays and of entrywise sums; at entry `(p, q)` a
product is the sum over the contracted index of the operands' entries, so each chain reads as nested finite sums. -/

/-- `(x0 · x2) · x4` at entry `(p, q)`. -/
theorem pay3_apply (x0 : Vec Ideal S55x64 .f32) (x2 : Vec Ideal S64x64 .f32) (x4 : Vec Ideal S64x2 .f32)
    (p : Fin 55) (q : Fin 2) :
    k0_pay3 (F := Ideal) x0 x2 x4 (ix2 p q)
      = ∑ k : Fin 64, (∑ j : Fin 64, x0 (ix2 p j) * x2 (ix2 j k)) * x4 (ix2 k q) := by
  unfold k0_pay3
  refine (PlainDot.matmul_zero_apply 55 64 2 _ _ p q).trans ?_
  refine Finset.sum_congr rfl fun k _ => ?_
  refine congrArg₂ (· * ·) ((PlainDot.matmul_zero_apply 55 64 64 _ _ p k).trans ?_) ?_
  · simp only [shapeCast_self]
  · simp only [shapeCast_self]

/-- `(x1 · x2 + x3) · x4 + x5` at entry `(p, q)`. -/
theorem pay4_apply (x1 : Vec Ideal S1x64 .f32) (x2 : Vec Ideal S64x64 .f32) (x3 : Vec Ideal S1x64 .f32)
    (x4 : Vec Ideal S64x2 .f32) (x5 : Vec Ideal S1x2 .f32) (p : Fin 1) (q : Fin 2) :
    k0_pay4 (F := Ideal) x1 x2 x3 x4 x5 (ix2 p q)
      = (∑ k : Fin 64, ((∑ j : Fin 64, x1 (ix2 p j) * x2 (ix2 j k)) + x3 (ix2 p k)) * x4 (ix2 k q)) + x5 (ix2 p q) := by
  unfold k0_pay4
  refine (addf_apply _ _ _).trans ?_
  refine congrArg₂ (· + ·) ((PlainDot.matmul_zero_apply 1 64 2 _ _ p q).trans ?_) ?_
  · refine Finset.sum_congr rfl fun k _ => ?_
    refine congrArg₂ (· * ·) ((addf_apply _ _ _).trans ?_) ?_
    · refine congrArg₂ (· + ·) ((PlainDot.matmul_zero_apply 1 64 64 _ _ p k).trans ?_) ?_
      · simp only [shapeCast_self]
      · simp only [shapeCast_self]
    · simp only [shapeCast_self]
  · simp only [shapeCast_self]

/-- `x6 · x8` at entry `(p, k)`. -/
theorem pay5_apply (x6 : Vec Ideal S1x128 .f32) (x8 : Vec Ideal S128x64 .f32) (p : Fin 1) (k : Fin 64) :
    k0_pay5 (F := Ideal) x6 x8 (ix2 p k) = ∑ j : Fin 128, x6 (ix2 p j) * x8 (ix2 j k) := by
  unfold k0_pay5
  refine (PlainDot.matmul_zero_apply 1 128 64 _ _ p k).trans ?_
  simp only [shapeCast_self]

/-- `(x6 · x8) · x10` at entry `(p, q)`. -/
theorem pay1_apply (x6 : Vec Ideal S1x128 .f32) (x8 : Vec Ideal S128x64 .f32) (x10 : Vec Ideal S64x220 .f32)
    (p : Fin 1) (q : Fin 220) :
    k0_pay1 (F := Ideal) (k0_pay5 (F := Ideal) x6 x8) x10 (ix2 p q)
      = ∑ k : Fin 64, (∑ j : Fin 128, x6 (ix2 p j) * x8 (ix2 j k)) * x10 (ix2 k q) := by
  unfold k0_pay1
  refine (PlainDot.matmul_zero_apply 1 64 220 _ _ p q).trans ?_
  refine Finset.sum_congr rfl fun k _ => ?_
  refine congrArg₂ (· * ·) (pay5_apply x6 x8 p k) ?_
  simp only [shapeCast_self]

/-- `(x7 · x8 + x9) · x10 + x11` at entry `(p, q)`. -/
theorem pay2_apply (x7 : Vec Ideal S1x128 .f32) (x8 : Vec Ideal S128x64 .f32) (x9 : Vec Ideal S1x64 .f32)
    (x10 : Vec Ideal S64x220 .f32) (x11 : Vec Ideal S1x220 .f32) (p : Fin 1) (q : Fin 220) :
    k0_pay2 (F := Ideal) x7 x8 x9 x10 x11 (ix2 p q)
      = (∑ k : Fin 64, ((∑ j : Fin 128, x7 (ix2 p j) * x8 (ix2 j k)) + x9 (ix2 p k)) * x10 (ix2 k q)) + x11 (ix2 p q) := by
  unfold k0_pay2
  refine (addf_apply _ _ _).trans ?_
  refine congrArg₂ (· + ·) ((PlainDot.matmul_zero_apply 1 64 220 _ _ p q).trans ?_) ?_
  · refine Finset.sum_congr rfl fun k _ => ?_
    refine congrArg₂ (· * ·) ((addf_apply _ _ _).trans ?_) ?_
    · refine congrArg₂ (· + ·) ((PlainDot.matmul_zero_apply 1 128 64 _ _ p k).trans ?_) ?_
      · simp only [shapeCast_self]
      · simp only [shapeCast_self]
    · simp only [shapeCast_self]
  · simp only [shapeCast_self]

variable (V : (c : Dev nD) → (b : Ref sig .tc) → Buf (Elt Ideal) ((c : Thread nD τ).loc b))

/-! ## The input blocks

The region has one point and every window's block is its whole array at block index zero, so an entry of a block sits
at the same coordinates in the array: each input block is the array the window stages. -/

theorem iblk0_0 (c : Dev nD) (t : Fin cfg0.N) : iblk0 (F := Ideal) V c 0 t = V c main_v1 := by
  funext y
  show V c main_v1 (((cfg0.win 0).blk t).view.emb y) = V c main_v1 y
  exact congrArg _ (funext fun a => Fin.ext ((cfg0.win 0).rect_emb_val_of_index_zero t a rfl y))

theorem iblk0_1 (c : Dev nD) (t : Fin cfg0.N) : iblk0 (F := Ideal) V c 1 t = V c main_v2 := by
  funext y
  show V c main_v2 (((cfg0.win 1).blk t).view.emb y) = V c main_v2 y
  exact congrArg _ (funext fun a => Fin.ext ((cfg0.win 1).rect_emb_val_of_index_zero t a rfl y))

theorem iblk0_2 (c : Dev nD) (t : Fin cfg0.N) : iblk0 (F := Ideal) V c 2 t = V c main_v3 := by
  funext y
  show V c main_v3 (((cfg0.win 2).blk t).view.emb y) = V c main_v3 y
  exact congrArg _ (funext fun a => Fin.ext ((cfg0.win 2).rect_emb_val_of_index_zero t a rfl y))

theorem iblk0_3 (c : Dev nD) (t : Fin cfg0.N) : iblk0 (F := Ideal) V c 3 t = V c main_v4 := by
  funext y
  show V c main_v4 (((cfg0.win 3).blk t).view.emb y) = V c main_v4 y
  exact congrArg _ (funext fun a => Fin.ext ((cfg0.win 3).rect_emb_val_of_index_zero t a rfl y))

theorem iblk0_4 (c : Dev nD) (t : Fin cfg0.N) : iblk0 (F := Ideal) V c 4 t = V c main_v5 := by
  funext y
  show V c main_v5 (((cfg0.win 4).blk t).view.emb y) = V c main_v5 y
  exact congrArg _ (funext fun a => Fin.ext ((cfg0.win 4).rect_emb_val_of_index_zero t a rfl y))

theorem iblk0_5 (c : Dev nD) (t : Fin cfg0.N) : iblk0 (F := Ideal) V c 5 t = V c main_v6 := by
  funext y
  show V c main_v6 (((cfg0.win 5).blk t).view.emb y) = V c main_v6 y
  exact congrArg _ (funext fun a => Fin.ext ((cfg0.win 5).rect_emb_val_of_index_zero t a rfl y))

theorem iblk0_6 (c : Dev nD) (t : Fin cfg0.N) : iblk0 (F := Ideal) V c 6 t = V c main_v7 := by
  funext y
  show V c main_v7 (((cfg0.win 6).blk t).view.emb y) = V c main_v7 y
  exact congrArg _ (funext fun a => Fin.ext ((cfg0.win 6).rect_emb_val_of_index_zero t a rfl y))

theorem iblk0_7 (c : Dev nD) (t : Fin cfg0.N) : iblk0 (F := Ideal) V c 7 t = V c main_v8 := by
  funext y
  show V c main_v8 (((cfg0.win 7).blk t).view.emb y) = V c main_v8 y
  exact congrArg _ (funext fun a => Fin.ext ((cfg0.win 7).rect_emb_val_of_index_zero t a rfl y))

theorem iblk0_8 (c : Dev nD) (t : Fin cfg0.N) : iblk0 (F := Ideal) V c 8 t = V c main_v9 := by
  funext y
  show V c main_v9 (((cfg0.win 8).blk t).view.emb y) = V c main_v9 y
  exact congrArg _ (funext fun a => Fin.ext ((cfg0.win 8).rect_emb_val_of_index_zero t a rfl y))

theorem iblk0_9 (c : Dev nD) (t : Fin cfg0.N) : iblk0 (F := Ideal) V c 9 t = V c main_v10 := by
  funext y
  show V c main_v10 (((cfg0.win 9).blk t).view.emb y) = V c main_v10 y
  exact congrArg _ (funext fun a => Fin.ext ((cfg0.win 9).rect_emb_val_of_index_zero t a rfl y))

theorem iblk0_10 (c : Dev nD) (t : Fin cfg0.N) : iblk0 (F := Ideal) V c 10 t = V c main_v11 := by
  funext y
  show V c main_v11 (((cfg0.win 10).blk t).view.emb y) = V c main_v11 y
  exact congrArg _ (funext fun a => Fin.ext ((cfg0.win 10).rect_emb_val_of_index_zero t a rfl y))

theorem iblk0_11 (c : Dev nD) (t : Fin cfg0.N) : iblk0 (F := Ideal) V c 11 t = V c main_v12 := by
  funext y
  show V c main_v12 (((cfg0.win 11).blk t).view.emb y) = V c main_v12 y
  exact congrArg _ (funext fun a => Fin.ext ((cfg0.win 11).rect_emb_val_of_index_zero t a rfl y))

/-! ## The output arrays

What the point writes back to an output window is the stored value, which entry by entry is the composed weights'
function of the staged arrays; the point's block is the whole array, so the array ends holding that function. -/

/-- The region's one point. -/
abbrev onlyPoint : Fin cfg0.N := ⟨0, by decide⟩

/-- What the point writes back to output window 12 is its block of `M = (W1T · W2T) · W3T` of the staged arrays. -/
theorem flushed12_eq (c : Dev nD) (t : Fin cfg0.N) :
    (dat0 (F := Ideal) V c).flushed 12 t
      = ((cfg0.win 12).blk t).view.read (Elt Ideal) (Cert.Spec.foldM (V c main_v1) (V c main_v3) (V c main_v5)) := by
  show (cfg0.win 12).cut (grid0.coords t) ((dat0 (F := Ideal) V c).after 12 t) = _
  rw [after0_12]
  unfold out0_12
  rw [View.canon_unit_zero hz]
  simp only [View.ld_unit_zero (S := S55x64) hz, View.ld_unit_zero (S := S64x64) hz, View.ld_unit_zero (S := S64x2) hz]
  rw [iblk0_0, iblk0_2, iblk0_4]
  funext y
  have he : ((cfg0.win 12).blk t).view.emb y = y :=
    funext fun a => Fin.ext ((cfg0.win 12).rect_emb_val_of_index_zero t a rfl y)
  show k0_pay3 (F := Ideal) (V c main_v1) (V c main_v3) (V c main_v5) y
    = Cert.Spec.foldM (V c main_v1) (V c main_v3) (V c main_v5) (((cfg0.win 12).blk t).view.emb y)
  rw [he]
  obtain ⟨p, q, rfl⟩ : ∃ (p : Fin 55) (q : Fin 2), y = ix2 p q := ⟨y 0, y 1, eq_ix2 y⟩
  exact pay3_apply (V c main_v1) (V c main_v3) (V c main_v5) p q

/-- The one point's block of output window 12 is the whole array. -/
theorem cover12 (i : S55x2.Idx) :
    ∃ t : Fin cfg0.N, (cfg0.win 12).flush t = true ∧ i ∈ ((cfg0.win 12).blk t).view.set := by
  refine ⟨onlyPoint, flush0_12 _, ?_⟩
  have he : ((cfg0.win 12).blk onlyPoint).view.emb i = i :=
    funext fun a => Fin.ext ((cfg0.win 12).rect_emb_val_of_index_zero onlyPoint a rfl i)
  have hm := ((cfg0.win 12).blk onlyPoint).view.emb_mem_set i
  rw [he] at hm
  exact hm

/-- What the point writes back to output window 13 is its block of `a = (b1 · W2T + b2) · W3T + b3` of the staged arrays. -/
theorem flushed13_eq (c : Dev nD) (t : Fin cfg0.N) :
    (dat0 (F := Ideal) V c).flushed 13 t
      = ((cfg0.win 13).blk t).view.read (Elt Ideal) (Cert.Spec.foldA (V c main_v2) (V c main_v3) (V c main_v4) (V c main_v5) (V c main_v6)) := by
  show (cfg0.win 13).cut (grid0.coords t) ((dat0 (F := Ideal) V c).after 13 t) = _
  rw [after0_13]
  unfold out0_13
  rw [View.canon_unit_zero hz]
  simp only [View.ld_unit_zero (S := S1x64) hz, View.ld_unit_zero (S := S64x64) hz, View.ld_unit_zero (S := S64x2) hz, View.ld_unit_zero (S := S1x2) hz]
  rw [iblk0_1, iblk0_2, iblk0_3, iblk0_4, iblk0_5]
  funext y
  have he : ((cfg0.win 13).blk t).view.emb y = y :=
    funext fun a => Fin.ext ((cfg0.win 13).rect_emb_val_of_index_zero t a rfl y)
  show k0_pay4 (F := Ideal) (V c main_v2) (V c main_v3) (V c main_v4) (V c main_v5) (V c main_v6) y
    = Cert.Spec.foldA (V c main_v2) (V c main_v3) (V c main_v4) (V c main_v5) (V c main_v6) (((cfg0.win 13).blk t).view.emb y)
  rw [he]
  obtain ⟨p, q, rfl⟩ : ∃ (p : Fin 1) (q : Fin 2), y = ix2 p q := ⟨y 0, y 1, eq_ix2 y⟩
  exact pay4_apply (V c main_v2) (V c main_v3) (V c main_v4) (V c main_v5) (V c main_v6) p q

/-- The one point's block of output window 13 is the whole array. -/
theorem cover13 (i : S1x2.Idx) :
    ∃ t : Fin cfg0.N, (cfg0.win 13).flush t = true ∧ i ∈ ((cfg0.win 13).blk t).view.set := by
  refine ⟨onlyPoint, flush0_13 _, ?_⟩
  have he : ((cfg0.win 13).blk onlyPoint).view.emb i = i :=
    funext fun a => Fin.ext ((cfg0.win 13).rect_emb_val_of_index_zero onlyPoint a rfl i)
  have hm := ((cfg0.win 13).blk onlyPoint).view.emb_mem_set i
  rw [he] at hm
  exact hm

/-- What the point writes back to output window 14 is its block of `C = (R1T · R2T) · R3T` of the staged arrays. -/
theorem flushed14_eq (c : Dev nD) (t : Fin cfg0.N) :
    (dat0 (F := Ideal) V c).flushed 14 t
      = ((cfg0.win 14).blk t).view.read (Elt Ideal) (Cert.Spec.foldC (V c main_v7) (V c main_v9) (V c main_v11)) := by
  show (cfg0.win 14).cut (grid0.coords t) ((dat0 (F := Ideal) V c).after 14 t) = _
  rw [after0_14]
  unfold out0_14
  rw [View.canon_unit_zero hz]
  simp only [View.ld_unit_zero (S := S1x128) hz, View.ld_unit_zero (S := S128x64) hz, View.ld_unit_zero (S := S64x220) hz]
  rw [iblk0_6, iblk0_8, iblk0_10]
  funext y
  have he : ((cfg0.win 14).blk t).view.emb y = y :=
    funext fun a => Fin.ext ((cfg0.win 14).rect_emb_val_of_index_zero t a rfl y)
  show k0_pay1 (F := Ideal) (k0_pay5 (F := Ideal) (V c main_v7) (V c main_v9)) (V c main_v11) y
    = Cert.Spec.foldC (V c main_v7) (V c main_v9) (V c main_v11) (((cfg0.win 14).blk t).view.emb y)
  rw [he]
  obtain ⟨p, q, rfl⟩ : ∃ (p : Fin 1) (q : Fin 220), y = ix2 p q := ⟨y 0, y 1, eq_ix2 y⟩
  exact pay1_apply (V c main_v7) (V c main_v9) (V c main_v11) p q

/-- The one point's block of output window 14 is the whole array. -/
theorem cover14 (i : S1x220.Idx) :
    ∃ t : Fin cfg0.N, (cfg0.win 14).flush t = true ∧ i ∈ ((cfg0.win 14).blk t).view.set := by
  refine ⟨onlyPoint, flush0_14 _, ?_⟩
  have he : ((cfg0.win 14).blk onlyPoint).view.emb i = i :=
    funext fun a => Fin.ext ((cfg0.win 14).rect_emb_val_of_index_zero onlyPoint a rfl i)
  have hm := ((cfg0.win 14).blk onlyPoint).view.emb_mem_set i
  rw [he] at hm
  exact hm

/-- What the point writes back to output window 15 is its block of `d = (c1 · R2T + c2) · R3T + c3` of the staged arrays. -/
theorem flushed15_eq (c : Dev nD) (t : Fin cfg0.N) :
    (dat0 (F := Ideal) V c).flushed 15 t
      = ((cfg0.win 15).blk t).view.read (Elt Ideal) (Cert.Spec.foldD (V c main_v8) (V c main_v9) (V c main_v10) (V c main_v11) (V c main_v12)) := by
  show (cfg0.win 15).cut (grid0.coords t) ((dat0 (F := Ideal) V c).after 15 t) = _
  rw [after0_15]
  unfold out0_15
  rw [View.canon_unit_zero hz]
  simp only [View.ld_unit_zero (S := S1x128) hz, View.ld_unit_zero (S := S128x64) hz, View.ld_unit_zero (S := S1x64) hz, View.ld_unit_zero (S := S64x220) hz, View.ld_unit_zero (S := S1x220) hz]
  rw [iblk0_7, iblk0_8, iblk0_9, iblk0_10, iblk0_11]
  funext y
  have he : ((cfg0.win 15).blk t).view.emb y = y :=
    funext fun a => Fin.ext ((cfg0.win 15).rect_emb_val_of_index_zero t a rfl y)
  show k0_pay2 (F := Ideal) (V c main_v8) (V c main_v9) (V c main_v10) (V c main_v11) (V c main_v12) y
    = Cert.Spec.foldD (V c main_v8) (V c main_v9) (V c main_v10) (V c main_v11) (V c main_v12) (((cfg0.win 15).blk t).view.emb y)
  rw [he]
  obtain ⟨p, q, rfl⟩ : ∃ (p : Fin 1) (q : Fin 220), y = ix2 p q := ⟨y 0, y 1, eq_ix2 y⟩
  exact pay2_apply (V c main_v8) (V c main_v9) (V c main_v10) (V c main_v11) (V c main_v12) p q

/-- The one point's block of output window 15 is the whole array. -/
theorem cover15 (i : S1x220.Idx) :
    ∃ t : Fin cfg0.N, (cfg0.win 15).flush t = true ∧ i ∈ ((cfg0.win 15).blk t).view.set := by
  refine ⟨onlyPoint, flush0_15 _, ?_⟩
  have he : ((cfg0.win 15).blk onlyPoint).view.emb i = i :=
    funext fun a => Fin.ext ((cfg0.win 15).rect_emb_val_of_index_zero onlyPoint a rfl i)
  have hm := ((cfg0.win 15).blk onlyPoint).view.emb_mem_set i
  rw [he] at hm
  exact hm

/-! ## The four arrays after the region -/

theorem final12 (c : Dev nD) :
    (dat0 (F := Ideal) V c).arrAt 12 cfg0.N = Cert.Spec.foldM (V c main_v1) (V c main_v3) (V c main_v5) := by
  exact (dat0 (F := Ideal) V c).arrAt_eq_of_cover 12 _ (fun t _ => flushed12_eq V c t) cover12

theorem final13 (c : Dev nD) :
    (dat0 (F := Ideal) V c).arrAt 13 cfg0.N
      = Cert.Spec.foldA (V c main_v2) (V c main_v3) (V c main_v4) (V c main_v5) (V c main_v6) := by
  exact (dat0 (F := Ideal) V c).arrAt_eq_of_cover 13 _ (fun t _ => flushed13_eq V c t) cover13

theorem final14 (c : Dev nD) :
    (dat0 (F := Ideal) V c).arrAt 14 cfg0.N = Cert.Spec.foldC (V c main_v7) (V c main_v9) (V c main_v11) := by
  exact (dat0 (F := Ideal) V c).arrAt_eq_of_cover 14 _ (fun t _ => flushed14_eq V c t) cover14

theorem final15 (c : Dev nD) :
    (dat0 (F := Ideal) V c).arrAt 15 cfg0.N
      = Cert.Spec.foldD (V c main_v8) (V c main_v9) (V c main_v10) (V c main_v11) (V c main_v12) := by
  exact (dat0 (F := Ideal) V c).arrAt_eq_of_cover 15 _ (fun t _ => flushed15_eq V c t) cover15

end Cert.KernelIdeal.FoldValue

end
-- ==== Proof.KMain.lean ====
/-
  The second kernel region's value.

  The region runs over 32 points; point t holds rows 512 t … 512 t + 511. From its block of the flattened input and of
  the noise column, and from the whole small arrays M, a, C, d, it stores the block of the mean (column 0 of
  z = x · M + a), of the exponential of column 1, and of the decoded rows (z₀ + z₁ · e) · C + d. Read at an entry, what
  a point writes back is the specification's function of the arrays at the entry's row; the 32 blocks tile each output
  array, so after the last point each array is that function everywhere.
-/
import proofs.«109162_g39084202394388_cont_8to1_b_76_2_alg».proof.Proof.Gen.KernelIdeal.Frame
import proofs.«109162_g39084202394388_cont_8to1_b_76_2_alg».proof.Proof.Spec
import proofs.«109162_g39084202394388_cont_8to1_b_76_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MainValue

open Cert.KernelIdeal Cert.KernelIdeal.Gen Idealize.ShloMosaic Idealize.ShloMosaic.TcCoe Idealize.SL.Sem Idealize.ShloMosaic.ValueIdx

section Blocks

/-! ## The body's arithmetic at an entry

Every value the body stores is read here at one entry (p, q) of its block, over blocks given as plain arrays of
extended reals: z = x · M + a, its two columns, the exponential of the second, and the decoded row. -/

/-- The zero offsets of a whole-buffer access, as a constant function. -/
theorem hz : (![0, 0] : Fin 2 → Nat) = fun _ => 0 := funext fun a => by fin_cases a <;> rfl

/-- The printed dimension record of the body's product is the plain 512 × 55 by 55 × 2 one. -/
theorem dot_eq_plain : dot_S512x55_S55x2_S512x2_1_0_0_1_n_n = DotDims.plain 512 55 2 := rfl

/-- z = x · M + a at entry (p, q): the product into the zero array, plus the one row of a broadcast over the rows. -/
theorem pay1_apply (x0 : Vec Ideal S512x55 .f32) (x2 : Vec Ideal S55x2 .f32) (x3 : Vec Ideal S1x2 .f32)
    (p : Fin 512) (q : Fin 2) :
    k1_pay1 x0 x2 x3 (ix2 p q) = (∑ k : Fin 55, x0 (ix2 p k) * x2 (ix2 k q)) + x3 (ix2 (0 : Fin 1) q) := by
  unfold k1_pay1
  rw [shapeCast_self, shapeCast_self, shapeCast_self]
  refine (addf_apply _ _ _).trans ?_
  congr 1
  · rw [dot_eq_plain]
    exact Idealize.ShloMosaic.PlainDot.matmul_zero_apply 512 55 2 x0 x2 p q
  · exact broadcastTo_1b_ab_apply x3 broadcasts_S1x2_S512x2 p q

/-- The first column of z, kept as a 512 × 1 block. -/
theorem pay2_apply (x0 : Vec Ideal S512x55 .f32) (x2 : Vec Ideal S55x2 .f32) (x3 : Vec Ideal S1x2 .f32)
    (p : Fin 512) (q : Fin 1) :
    k1_pay2 x0 x2 x3 (ix2 p q) = k1_pay1 x0 x2 x3 (ix2 p (0 : Fin 2)) := by
  unfold k1_pay2
  exact slice2_axis1_apply 0 (k1_pay1 x0 x2 x3) slices_S512x2_o0_0_S512x1 p q (0 : Fin 2)
    (by have := q.isLt; show 0 = 0 + q.val; omega)

/-- The second column of z, kept as a 512 × 1 block. -/
theorem pay3_apply (x0 : Vec Ideal S512x55 .f32) (x2 : Vec Ideal S55x2 .f32) (x3 : Vec Ideal S1x2 .f32)
    (p : Fin 512) (q : Fin 1) :
    k1_pay3 x0 x2 x3 (ix2 p q) = k1_pay1 x0 x2 x3 (ix2 p (1 : Fin 2)) := by
  unfold k1_pay3
  exact slice2_axis1_apply 1 (k1_pay1 x0 x2 x3) slices_S512x2_o0_1_S512x1 p q (1 : Fin 2)
    (by have := q.isLt; show 1 = 1 + q.val; omega)

/-- The exponential of the second column. -/
theorem pay4_apply (x0 : Vec Ideal S512x55 .f32) (x2 : Vec Ideal S55x2 .f32) (x3 : Vec Ideal S1x2 .f32)
    (p : Fin 512) (q : Fin 1) :
    k1_pay4 x0 x2 x3 (ix2 p q) = Ideal.exp (k1_pay1 x0 x2 x3 (ix2 p (1 : Fin 2))) := by
  unfold k1_pay4
  exact congrArg Ideal.exp (pay3_apply x0 x2 x3 p q)

/-- The decoded row at entry (p, q): (z₀ + z₁ · e) · C + d, the sample broadcast along the 220 columns and the one
    row of C and of d along the 512 rows. -/
theorem pay5_apply (x0 : Vec Ideal S512x55 .f32) (x2 : Vec Ideal S55x2 .f32) (x3 : Vec Ideal S1x2 .f32)
    (x1 : Vec Ideal S512x1 .f32) (x4 x5 : Vec Ideal S1x220 .f32) (p : Fin 512) (q : Fin 220) :
    k1_pay5 x0 x2 x3 x1 x4 x5 (ix2 p q)
      = (k1_pay1 x0 x2 x3 (ix2 p (0 : Fin 2)) + k1_pay1 x0 x2 x3 (ix2 p (1 : Fin 2)) * x1 (ix2 p (0 : Fin 1)))
          * x4 (ix2 (0 : Fin 1) q) + x5 (ix2 (0 : Fin 1) q) := by
  unfold k1_pay5
  rw [shapeCast_self, shapeCast_self]
  refine (addf_apply _ _ _).trans ?_
  congr 1
  · refine (mulf_apply _ _ _).trans ?_
    congr 1
    · refine (broadcastTo_apply _ broadcasts_S512x1_S512x220 (ix2 p q) (ix2 p (0 : Fin 1)) fun ax => ?_).trans ?_
      · match ax with
        | ⟨0, _⟩ => rfl
        | ⟨1, _⟩ => rfl
      · refine (addf_apply _ _ _).trans ?_
        congr 1
        · exact pay2_apply x0 x2 x3 p 0
        · refine (mulf_apply _ _ _).trans ?_
          congr 1
          exact pay3_apply x0 x2 x3 p 0
    · exact broadcastTo_1b_ab_apply x4 broadcasts_S1x220_S512x220 p q
  · exact broadcastTo_1b_ab_apply x5 broadcasts_S1x220_S512x220 p q

/-! ## The grid and the blocks

Point t of the 32-point grid handles rows 512 t … 512 t + 511: the row blocks of x, of the noise and of the three
outputs sit at block index (t, 0), and the four small arrays are staged whole, at block index (0, 0). -/

/-- The grid has 32 points. -/
theorem N_eq : cfg1.N = 32 := N_1

/-- The printed index maps, decided over the grid. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- Row p of point t's block is row 512 t + p of the array. -/
def row (t : Fin cfg1.N) (p : Fin 512) : Fin 16384 :=
  ⟨512 * t.val + p.val, by have := t.isLt; have := N_eq; have := p.isLt; omega⟩

theorem row_val (t : Fin cfg1.N) (p : Fin 512) : (row t p).val = 512 * t.val + p.val := rfl

variable (V : (c : Dev nD) → (b : Ref sig .tc) → Buf (Elt Ideal) ((c : Thread nD τ).loc b))

/-- The block of x at point t, at (p, k), is x at (512 t + p, k). -/
theorem blk0_apply (c : Dev nD) (t : Fin cfg1.N) (p : Fin 512) (k : Fin 55) :
    iblk1 V c 0 t (ix2 p k) = V c main_v0 (ix2 (row t p) k) := by
  obtain ⟨⟨e0, e1⟩, -⟩ := idx_facts t
  show V c main_v0 (((cfg1.win 0).blk t).view.emb (ix2 p k)) = V c main_v0 (ix2 (row t p) k)
  refine congrArg (V c main_v0) (funext fun a => Fin.ext ?_)
  match a with
  | ⟨0, _⟩ => show win1_0.index t (0 : Fin 2) * 512 + 1 * p.val = 512 * t.val + p.val; rw [e0]; omega
  | ⟨1, _⟩ => show win1_0.index t (1 : Fin 2) * 55 + 1 * k.val = k.val; rw [e1]; omega

/-- The block of the noise at point t, at (p, j), is the noise at (512 t + p, j). -/
theorem blk1_apply (c : Dev nD) (t : Fin cfg1.N) (p : Fin 512) (j : Fin 1) :
    iblk1 V c 1 t (ix2 p j) = V c main_arg13 (ix2 (row t p) j) := by
  obtain ⟨-, ⟨e0, e1⟩, -⟩ := idx_facts t
  show V c main_arg13 (((cfg1.win 1).blk t).view.emb (ix2 p j)) = V c main_arg13 (ix2 (row t p) j)
  refine congrArg (V c main_arg13) (funext fun a => Fin.ext ?_)
  match a with
  | ⟨0, _⟩ => show win1_1.index t (0 : Fin 2) * 512 + 1 * p.val = 512 * t.val + p.val; rw [e0]; omega
  | ⟨1, _⟩ => show win1_1.index t (1 : Fin 2) * 1 + 1 * j.val = j.val; rw [e1]; omega

/-- The block of M at every point is M. -/
theorem blk2_apply (c : Dev nD) (t : Fin cfg1.N) (k : Fin 55) (n : Fin 2) :
    iblk1 V c 2 t (ix2 k n) = V c main_v13_0 (ix2 k n) := by
  obtain ⟨-, -, ⟨e0, e1⟩, -⟩ := idx_facts t
  show V c main_v13_0 (((cfg1.win 2).blk t).view.emb (ix2 k n)) = V c main_v13_0 (ix2 k n)
  refine congrArg (V c main_v13_0) (funext fun a => Fin.ext ?_)
  match a with
  | ⟨0, _⟩ => show win1_2.index t (0 : Fin 2) * 55 + 1 * k.val = k.val; rw [e0]; omega
  | ⟨1, _⟩ => show win1_2.index t (1 : Fin 2) * 2 + 1 * n.val = n.val; rw [e1]; omega

/-- The block of a at every point is a. -/
theorem blk3_apply (c : Dev nD) (t : Fin cfg1.N) (j : Fin 1) (n : Fin 2) :
    iblk1 V c 3 t (ix2 j n) = V c main_v13_1 (ix2 j n) := by
  obtain ⟨-, -, -, ⟨e0, e1⟩, -⟩ := idx_facts t
  show V c main_v13_1 (((cfg1.win 3).blk t).view.emb (ix2 j n)) = V c main_v13_1 (ix2 j n)
  refine congrArg (V c main_v13_1) (funext fun a => Fin.ext ?_)
  match a with
  | ⟨0, _⟩ => show win1_3.index t (0 : Fin 2) * 1 + 1 * j.val = j.val; rw [e0]; omega
  | ⟨1, _⟩ => show win1_3.index t (1 : Fin 2) * 2 + 1 * n.val = n.val; rw [e1]; omega

/-- The block of C at every point is C. -/
theorem blk4_apply (c : Dev nD) (t : Fin cfg1.N) (j : Fin 1) (o : Fin 220) :
    iblk1 V c 4 t (ix2 j o) = V c main_v13_2 (ix2 j o) := by
  obtain ⟨-, -, -, -, ⟨e0, e1⟩, -⟩ := idx_facts t
  show V c main_v13_2 (((cfg1.win 4).blk t).view.emb (ix2 j o)) = V c main_v13_2 (ix2 j o)
  refine congrArg (V c main_v13_2) (funext fun a => Fin.ext ?_)
  match a with
  | ⟨0, _⟩ => show win1_4.index t (0 : Fin 2) * 1 + 1 * j.val = j.val; rw [e0]; omega
  | ⟨1, _⟩ => show win1_4.index t (1 : Fin 2) * 220 + 1 * o.val = o.val; rw [e1]; omega

/-- The block of d at every point is d. -/
theorem blk5_apply (c : Dev nD) (t : Fin cfg1.N) (j : Fin 1) (o : Fin 220) :
    iblk1 V c 5 t (ix2 j o) = V c main_v13_3 (ix2 j o) := by
  obtain ⟨-, -, -, -, -, ⟨e0, e1⟩, -⟩ := idx_facts t
  show V c main_v13_3 (((cfg1.win 5).blk t).view.emb (ix2 j o)) = V c main_v13_3 (ix2 j o)
  refine congrArg (V c main_v13_3) (funext fun a => Fin.ext ?_)
  match a with
  | ⟨0, _⟩ => show win1_5.index t (0 : Fin 2) * 1 + 1 * j.val = j.val; rw [e0]; omega
  | ⟨1, _⟩ => show win1_5.index t (1 : Fin 2) * 220 + 1 * o.val = o.val; rw [e1]; omega

/-- z at row p of point t's blocks is the specification's z at row 512 t + p of the arrays. -/
theorem pay1_blocks (c : Dev nD) (t : Fin cfg1.N) (p : Fin 512) (n : Fin 2) :
    k1_pay1 (iblk1 V c 0 t) (iblk1 V c 2 t) (iblk1 V c 3 t) (ix2 p n)
      = Cert.Spec.zrow (V c main_v0) (V c main_v13_0) (V c main_v13_1) (row t p) n := by
  refine (pay1_apply (iblk1 V c 0 t) (iblk1 V c 2 t) (iblk1 V c 3 t) p n).trans ?_
  unfold Cert.Spec.zrow
  congr 1
  · refine Finset.sum_congr rfl fun k _ => ?_
    congr 1
    · exact blk0_apply V c t p k
    · exact blk2_apply V c t k n
  · exact blk3_apply V c t 0 n

/-! ## The mean -/

/-- Entry (p, q) of point t's block of the mean sits at (512 t + p, q) of the array. -/
theorem emb6 (t : Fin cfg1.N) (p : Fin 512) (q : Fin 1) :
    (((cfg1.win 6).blk t).view.emb (ix2 p q) : S16384x1.Idx) = ix2 (row t p) q := by
  obtain ⟨-, -, -, -, -, -, ⟨e0, e1⟩, -⟩ := idx_facts t
  refine funext fun a => Fin.ext ?_
  match a with
  | ⟨0, _⟩ => show win1_6.index t (0 : Fin 2) * 512 + 1 * p.val = 512 * t.val + p.val; rw [e0]; omega
  | ⟨1, _⟩ => show win1_6.index t (1 : Fin 2) * 1 + 1 * q.val = q.val; rw [e1]; omega

/-- What point t writes back to the mean is its block of the specification's mean. -/
theorem flushed6_eq (c : Dev nD) (t : Fin cfg1.N) :
    (dat1 (F := Ideal) V c).flushed 6 t
      = ((cfg1.win 6).blk t).view.read (Elt Ideal) (Cert.Spec.outMean (V c main_v0) (V c main_v13_0) (V c main_v13_1)) := by
  show (cfg1.win 6).cut (grid1.coords t) ((dat1 (F := Ideal) V c).after 6 t) = _
  rw [after1_6]
  unfold out1_6
  rw [View.canon_unit_zero hz]
  simp only [View.ld_unit_zero (S := S512x55) hz, View.ld_unit_zero (S := S55x2) hz, View.ld_unit_zero (S := S1x2) hz]
  funext y
  obtain ⟨p, q, rfl⟩ : ∃ (p : Fin 512) (q : Fin 1), y = ix2 p q := ⟨y 0, y 1, eq_ix2 y⟩
  show k1_pay2 (iblk1 V c 0 t) (iblk1 V c 2 t) (iblk1 V c 3 t) (ix2 p q)
    = Cert.Spec.outMean (V c main_v0) (V c main_v13_0) (V c main_v13_1) (((cfg1.win 6).blk t).view.emb (ix2 p q))
  rw [emb6 t p q]
  refine (pay2_apply (iblk1 V c 0 t) (iblk1 V c 2 t) (iblk1 V c 3 t) p q).trans ?_
  exact pay1_blocks V c t p 0

/-- An index of the mean is in point t's block iff each coordinate is in the block's range on its axis. -/
theorem mem_blk6 (t : Fin cfg1.N) (i : S16384x1.Idx) :
    i ∈ ((cfg1.win 6).blk t).view.set ↔ ∀ a : Fin 2, win1_6.index t a * S512x1.size a ≤ (i a).val ∧ (i a).val < win1_6.index t a * S512x1.size a + S512x1.size a := by
  show i ∈ ((View.whole main_v14_0).slice (win1_6.rect t)).set ↔ _
  rw [View.set_slice_whole, Rect.mem_set_unit]
  exact Iff.rfl

/-- Row r of the mean is covered by point r / 512. -/
theorem cover6 (i : S16384x1.Idx) :
    ∃ t : Fin cfg1.N, (cfg1.win 6).flush t = true ∧ i ∈ ((cfg1.win 6).blk t).view.set := by
  have hi0 : (i 0).val < 16384 := (i 0).isLt
  have hi1 : (i 1).val < 1 := (i 1).isLt
  obtain ⟨t, ht⟩ : ∃ t : Fin cfg1.N, t.val = (i 0).val / 512 := ⟨⟨(i 0).val / 512, by rw [N_eq]; omega⟩, rfl⟩
  obtain ⟨-, -, -, -, -, -, ⟨e0, e1⟩, -⟩ := idx_facts t
  refine ⟨t, flush1_6 t, ?_⟩
  rw [mem_blk6]
  intro a
  match a with
  | ⟨0, _⟩ => show win1_6.index t (0 : Fin 2) * 512 ≤ (i 0).val ∧ (i 0).val < win1_6.index t (0 : Fin 2) * 512 + 512; rw [e0]; omega
  | ⟨1, _⟩ => show win1_6.index t (1 : Fin 2) * 1 ≤ (i 1).val ∧ (i 1).val < win1_6.index t (1 : Fin 2) * 1 + 1; rw [e1]; omega

/-! ## The exponential of the second column -/

/-- Entry (p, q) of point t's block of the second output sits at (512 t + p, q) of the array. -/
theorem emb7 (t : Fin cfg1.N) (p : Fin 512) (q : Fin 1) :
    (((cfg1.win 7).blk t).view.emb (ix2 p q) : S16384x1.Idx) = ix2 (row t p) q := by
  obtain ⟨-, -, -, -, -, -, -, ⟨e0, e1⟩, -⟩ := idx_facts t
  refine funext fun a => Fin.ext ?_
  match a with
  | ⟨0, _⟩ => show win1_7.index t (0 : Fin 2) * 512 + 1 * p.val = 512 * t.val + p.val; rw [e0]; omega
  | ⟨1, _⟩ => show win1_7.index t (1 : Fin 2) * 1 + 1 * q.val = q.val; rw [e1]; omega

/-- What point t writes back to the second output is its block of the specification's exponential. -/
theorem flushed7_eq (c : Dev nD) (t : Fin cfg1.N) :
    (dat1 (F := Ideal) V c).flushed 7 t
      = ((cfg1.win 7).blk t).view.read (Elt Ideal) (Cert.Spec.outStd (V c main_v0) (V c main_v13_0) (V c main_v13_1)) := by
  show (cfg1.win 7).cut (grid1.coords t) ((dat1 (F := Ideal) V c).after 7 t) = _
  rw [after1_7]
  unfold out1_7
  rw [View.canon_unit_zero hz]
  simp only [View.ld_unit_zero (S := S512x55) hz, View.ld_unit_zero (S := S55x2) hz, View.ld_unit_zero (S := S1x2) hz]
  funext y
  obtain ⟨p, q, rfl⟩ : ∃ (p : Fin 512) (q : Fin 1), y = ix2 p q := ⟨y 0, y 1, eq_ix2 y⟩
  show k1_pay4 (iblk1 V c 0 t) (iblk1 V c 2 t) (iblk1 V c 3 t) (ix2 p q)
    = Cert.Spec.outStd (V c main_v0) (V c main_v13_0) (V c main_v13_1) (((cfg1.win 7).blk t).view.emb (ix2 p q))
  rw [emb7 t p q]
  refine (pay4_apply (iblk1 V c 0 t) (iblk1 V c 2 t) (iblk1 V c 3 t) p q).trans ?_
  exact congrArg Ideal.exp (pay1_blocks V c t p 1)

/-- An index of the second output is in point t's block iff each coordinate is in the block's range on its axis. -/
theorem mem_blk7 (t : Fin cfg1.N) (i : S16384x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v14_1).slice (win1_7.rect t)).set ↔ _
  rw [View.set_slice_whole, Rect.mem_set_unit]
  exact Iff.rfl

/-- Row r of the second output is covered by point r / 512. -/
theorem cover7 (i : S16384x1.Idx) :
    ∃ t : Fin cfg1.N, (cfg1.win 7).flush t = true ∧ i ∈ ((cfg1.win 7).blk t).view.set := by
  have hi0 : (i 0).val < 16384 := (i 0).isLt
  have hi1 : (i 1).val < 1 := (i 1).isLt
  obtain ⟨t, ht⟩ : ∃ t : Fin cfg1.N, t.val = (i 0).val / 512 := ⟨⟨(i 0).val / 512, by rw [N_eq]; omega⟩, rfl⟩
  obtain ⟨-, -, -, -, -, -, -, ⟨e0, e1⟩, -⟩ := idx_facts t
  refine ⟨t, flush1_7 t, ?_⟩
  rw [mem_blk7]
  intro a
  match a with
  | ⟨0, _⟩ => show win1_7.index t (0 : Fin 2) * 512 ≤ (i 0).val ∧ (i 0).val < win1_7.index t (0 : Fin 2) * 512 + 512; rw [e0]; omega
  | ⟨1, _⟩ => show win1_7.index t (1 : Fin 2) * 1 ≤ (i 1).val ∧ (i 1).val < win1_7.index t (1 : Fin 2) * 1 + 1; rw [e1]; omega

/-! ## The decoded rows -/

/-- Entry (p, q) of point t's block of the decoded rows sits at (512 t + p, q) of the array. -/
theorem emb8 (t : Fin cfg1.N) (p : Fin 512) (q : Fin 220) :
    (((cfg1.win 8).blk t).view.emb (ix2 p q) : S16384x220.Idx) = ix2 (row t p) q := by
  obtain ⟨-, -, -, -, -, -, -, -, e0, e1⟩ := idx_facts t
  refine funext fun a => Fin.ext ?_
  match a with
  | ⟨0, _⟩ => show win1_8.index t (0 : Fin 2) * 512 + 1 * p.val = 512 * t.val + p.val; rw [e0]; omega
  | ⟨1, _⟩ => show win1_8.index t (1 : Fin 2) * 220 + 1 * q.val = q.val; rw [e1]; omega

/-- What point t writes back to the third output is its block of the specification's decoded rows. -/
theorem flushed8_eq (c : Dev nD) (t : Fin cfg1.N) :
    (dat1 (F := Ideal) V c).flushed 8 t
      = ((cfg1.win 8).blk t).view.read (Elt Ideal)
          (Cert.Spec.outProd (V c main_v0) (V c main_arg13) (V c main_v13_0) (V c main_v13_1) (V c main_v13_2) (V c main_v13_3)) := by
  show (cfg1.win 8).cut (grid1.coords t) ((dat1 (F := Ideal) V c).after 8 t) = _
  rw [after1_8]
  unfold out1_8
  rw [View.canon_unit_zero hz]
  simp only [View.ld_unit_zero (S := S512x55) hz, View.ld_unit_zero (S := S55x2) hz, View.ld_unit_zero (S := S1x2) hz,
    View.ld_unit_zero (S := S512x1) hz, View.ld_unit_zero (S := S1x220) hz]
  funext y
  obtain ⟨p, q, rfl⟩ : ∃ (p : Fin 512) (q : Fin 220), y = ix2 p q := ⟨y 0, y 1, eq_ix2 y⟩
  show k1_pay5 (iblk1 V c 0 t) (iblk1 V c 2 t) (iblk1 V c 3 t) (iblk1 V c 1 t) (iblk1 V c 4 t) (iblk1 V c 5 t) (ix2 p q)
    = Cert.Spec.outProd (V c main_v0) (V c main_arg13) (V c main_v13_0) (V c main_v13_1) (V c main_v13_2) (V c main_v13_3)
        (((cfg1.win 8).blk t).view.emb (ix2 p q))
  rw [emb8 t p q]
  refine (pay5_apply (iblk1 V c 0 t) (iblk1 V c 2 t) (iblk1 V c 3 t) (iblk1 V c 1 t) (iblk1 V c 4 t) (iblk1 V c 5 t) p q).trans ?_
  unfold Cert.Spec.outProd Cert.Spec.sample
  congr 1
  · congr 1
    · congr 1
      · exact pay1_blocks V c t p 0
      · congr 1
        · exact pay1_blocks V c t p 1
        · exact blk1_apply V c t p 0
    · exact blk4_apply V c t 0 q
  · exact blk5_apply V c t 0 q

/-- An index of the third output is in point t's block iff each coordinate is in the block's range on its axis. -/
theorem mem_blk8 (t : Fin cfg1.N) (i : S16384x220.Idx) :
    i ∈ ((cfg1.win 8).blk t).view.set ↔ ∀ a : Fin 2, win1_8.index t a * S512x220.size a ≤ (i a).val ∧ (i a).val < win1_8.index t a * S512x220.size a + S512x220.size a := by
  show i ∈ ((View.whole main_v14_2).slice (win1_8.rect t)).set ↔ _
  rw [View.set_slice_whole, Rect.mem_set_unit]
  exact Iff.rfl

/-- Row r of the third output is covered by point r / 512. -/
theorem cover8 (i : S16384x220.Idx) :
    ∃ t : Fin cfg1.N, (cfg1.win 8).flush t = true ∧ i ∈ ((cfg1.win 8).blk t).view.set := by
  have hi0 : (i 0).val < 16384 := (i 0).isLt
  have hi1 : (i 1).val < 220 := (i 1).isLt
  obtain ⟨t, ht⟩ : ∃ t : Fin cfg1.N, t.val = (i 0).val / 512 := ⟨⟨(i 0).val / 512, by rw [N_eq]; omega⟩, rfl⟩
  obtain ⟨-, -, -, -, -, -, -, -, e0, e1⟩ := idx_facts t
  refine ⟨t, flush1_8 t, ?_⟩
  rw [mem_blk8]
  intro a
  match a with
  | ⟨0, _⟩ => show win1_8.index t (0 : Fin 2) * 512 ≤ (i 0).val ∧ (i 0).val < win1_8.index t (0 : Fin 2) * 512 + 512; rw [e0]; omega
  | ⟨1, _⟩ => show win1_8.index t (1 : Fin 2) * 220 ≤ (i 1).val ∧ (i 1).val < win1_8.index t (1 : Fin 2) * 220 + 220; rw [e1]; omega

end Blocks

variable (V : (c : Dev nD) → (b : Ref sig .tc) → Buf (Elt Ideal) ((c : Thread nD τ).loc b))

theorem final6 (c : Dev nD) :
    (dat1 (F := Ideal) V c).arrAt 6 cfg1.N = Cert.Spec.outMean (V c main_v0) (V c main_v13_0) (V c main_v13_1) := by
  exact (dat1 (F := Ideal) V c).arrAt_eq_of_cover 6 (Cert.Spec.outMean (V c main_v0) (V c main_v13_0) (V c main_v13_1))
    (fun t _ => flushed6_eq V c t) cover6

theorem final7 (c : Dev nD) :
    (dat1 (F := Ideal) V c).arrAt 7 cfg1.N = Cert.Spec.outStd (V c main_v0) (V c main_v13_0) (V c main_v13_1) := by
  exact (dat1 (F := Ideal) V c).arrAt_eq_of_cover 7 (Cert.Spec.outStd (V c main_v0) (V c main_v13_0) (V c main_v13_1))
    (fun t _ => flushed7_eq V c t) cover7

theorem final8 (c : Dev nD) :
    (dat1 (F := Ideal) V c).arrAt 8 cfg1.N
      = Cert.Spec.outProd (V c main_v0) (V c main_arg13) (V c main_v13_0) (V c main_v13_1) (V c main_v13_2) (V c main_v13_3) := by
  exact (dat1 (F := Ideal) V c).arrAt_eq_of_cover 8
    (Cert.Spec.outProd (V c main_v0) (V c main_arg13) (V c main_v13_0) (V c main_v13_1) (V c main_v13_2) (V c main_v13_3))
    (fun t _ => flushed8_eq V c t) cover8

end Cert.KernelIdeal.MainValue

end
-- ==== Proof.KValue.lean ====
/-
  The idealized kernel's results as functions of its arguments.

  The program's run ends with every buffer at the last boundary's contents, a fold through the program: the host
  operations before the first region (a reshape, transposes and one-row broadcasts of the arguments), the first
  region's four arrays (the composed weights `M`, `a`, `C`, `d`), the second region's three arrays (the mean, the
  exponential and the decoded rows over all 32 row blocks), and the closing reshape. Read back through that fold,
  the three results are `outMean`, `outStd` and the reshape of `outProd` of the composed weights of the
  transposed arguments.
-/
import proofs.«109162_g39084202394388_cont_8to1_b_76_2_alg».proof.Proof.KernelRun
import proofs.«109162_g39084202394388_cont_8to1_b_76_2_alg».proof.Proof.KFold
import proofs.«109162_g39084202394388_cont_8to1_b_76_2_alg».proof.Proof.KMain
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Cert.Spec

variable (m : (ℓ : Loc nD τ sig) → Buf (Elt Ideal) ℓ) (ρ : Dev nD → PrngReg)

/-! ## The arrays both regions read: the arguments reshaped, transposed, or laid out as one row -/

/-- The input flattened to 16384 × 55. -/
abbrev xfV (c : Dev nD) : A2 16384 55 := shapeCast S16384x55 (m ((c : Thread nD τ).loc main_arg0)) shapeCasts_S16384x5x11_S16384x55
abbrev W1T (c : Dev nD) : A2 55 64 := transpose S55x64 [1, 0] (m ((c : Thread nD τ).loc main_arg1)) transposes_S64x55_S55x64_1_0
abbrev b1r (c : Dev nD) : A2 1 64 := broadcastInDim S1x64 ![1] bcast_S64_S1x64_1 (m ((c : Thread nD τ).loc main_arg2))
abbrev W2T (c : Dev nD) : A2 64 64 := transpose S64x64 [1, 0] (m ((c : Thread nD τ).loc main_arg3)) transposes_S64x64_S64x64_1_0
abbrev b2r (c : Dev nD) : A2 1 64 := broadcastInDim S1x64 ![1] bcast_S64_S1x64_1 (m ((c : Thread nD τ).loc main_arg4))
abbrev W3T (c : Dev nD) : A2 64 2 := transpose S64x2 [1, 0] (m ((c : Thread nD τ).loc main_arg5)) transposes_S2x64_S64x2_1_0
abbrev b3r (c : Dev nD) : A2 1 2 := broadcastInDim S1x2 ![1] bcast_S2_S1x2_1 (m ((c : Thread nD τ).loc main_arg6))
/-- The 128 × 1 first decoder weight read as one row of 128. -/
abbrev R1T (c : Dev nD) : A2 1 128 := shapeCast S1x128 (m ((c : Thread nD τ).loc main_arg7)) shapeCasts_S128x1_S1x128
abbrev c1r (c : Dev nD) : A2 1 128 := broadcastInDim S1x128 ![1] bcast_S128_S1x128_1 (m ((c : Thread nD τ).loc main_arg8))
abbrev R2T (c : Dev nD) : A2 128 64 := transpose S128x64 [1, 0] (m ((c : Thread nD τ).loc main_arg9)) transposes_S64x128_S128x64_1_0
abbrev c2r (c : Dev nD) : A2 1 64 := broadcastInDim S1x64 ![1] bcast_S64_S1x64_1 (m ((c : Thread nD τ).loc main_arg10))
abbrev R3T (c : Dev nD) : A2 64 220 := transpose S64x220 [1, 0] (m ((c : Thread nD τ).loc main_arg11)) transposes_S220x64_S64x220_1_0
abbrev c3r (c : Dev nD) : A2 1 220 := broadcastInDim S1x220 ![1] bcast_S220_S1x220_1 (m ((c : Thread nD τ).loc main_arg12))
/-- The noise column. -/
abbrev eV (c : Dev nD) : A2 16384 1 := m ((c : Thread nD τ).loc main_arg13)

/-! ## The first region's entry contents are those arrays -/

theorem V1_v0 (c : Dev nD) : V1 m ρ c main_v0 = xfV m c := by
  show StableHlo.after hostOps0 (W0 m ρ c) (Proc.devRef .tc main_v0) = _
  after_results; rfl
theorem V1_v1 (c : Dev nD) : V1 m ρ c main_v1 = W1T m c := by
  show StableHlo.after hostOps0 (W0 m ρ c) (Proc.devRef .tc main_v1) = _
  after_results
theorem V1_v2 (c : Dev nD) : V1 m ρ c main_v2 = b1r m c := by
  show StableHlo.after hostOps0 (W0 m ρ c) (Proc.devRef .tc main_v2) = _
  after_results
theorem V1_v3 (c : Dev nD) : V1 m ρ c main_v3 = W2T m c := by
  show StableHlo.after hostOps0 (W0 m ρ c) (Proc.devRef .tc main_v3) = _
  after_results
theorem V1_v4 (c : Dev nD) : V1 m ρ c main_v4 = b2r m c := by
  show StableHlo.after hostOps0 (W0 m ρ c) (Proc.devRef .tc main_v4) = _
  after_results
theorem V1_v5 (c : Dev nD) : V1 m ρ c main_v5 = W3T m c := by
  show StableHlo.after hostOps0 (W0 m ρ c) (Proc.devRef .tc main_v5) = _
  after_results
theorem V1_v6 (c : Dev nD) : V1 m ρ c main_v6 = b3r m c := by
  show StableHlo.after hostOps0 (W0 m ρ c) (Proc.devRef .tc main_v6) = _
  after_results
theorem V1_v7 (c : Dev nD) : V1 m ρ c main_v7 = R1T m c := by
  show StableHlo.after hostOps0 (W0 m ρ c) (Proc.devRef .tc main_v7) = _
  after_results; rfl
theorem V1_v8 (c : Dev nD) : V1 m ρ c main_v8 = c1r m c := by
  show StableHlo.after hostOps0 (W0 m ρ c) (Proc.devRef .tc main_v8) = _
  after_results
theorem V1_v9 (c : Dev nD) : V1 m ρ c main_v9 = R2T m c := by
  show StableHlo.after hostOps0 (W0 m ρ c) (Proc.devRef .tc main_v9) = _
  after_results
theorem V1_v10 (c : Dev nD) : V1 m ρ c main_v10 = c2r m c := by
  show StableHlo.after hostOps0 (W0 m ρ c) (Proc.devRef .tc main_v10) = _
  after_results
theorem V1_v11 (c : Dev nD) : V1 m ρ c main_v11 = R3T m c := by
  show StableHlo.after hostOps0 (W0 m ρ c) (Proc.devRef .tc main_v11) = _
  after_results
theorem V1_v12 (c : Dev nD) : V1 m ρ c main_v12 = c3r m c := by
  show StableHlo.after hostOps0 (W0 m ρ c) (Proc.devRef .tc main_v12) = _
  after_results
theorem V1_arg13 (c : Dev nD) : V1 m ρ c main_arg13 = eV m c := by
  show StableHlo.after hostOps0 (W0 m ρ c) (Proc.devRef .tc main_arg13) = _
  after_results

/-! ## The composed weights, and the second region's entry contents -/

/-- `M = (W1T · W2T) · W3T` of the arguments. -/
abbrev Mk (c : Dev nD) : A2 55 2 := foldM (W1T m c) (W2T m c) (W3T m c)
/-- `a = (b1 · W2T + b2) · W3T + b3` of the arguments. -/
abbrev ak (c : Dev nD) : A2 1 2 := foldA (b1r m c) (W2T m c) (b2r m c) (W3T m c) (b3r m c)
/-- `C = (R1T · R2T) · R3T` of the arguments. -/
abbrev Ck (c : Dev nD) : A2 1 220 := foldC (R1T m c) (R2T m c) (R3T m c)
/-- `d = (c1 · R2T + c2) · R3T + c3` of the arguments. -/
abbrev dk (c : Dev nD) : A2 1 220 := foldD (c1r m c) (R2T m c) (c2r m c) (R3T m c) (c3r m c)

theorem V2_v13_0 (c : Dev nD) : V2 m ρ c main_v13_0 = Mk m c := by
  refine (W2_arr m ρ c 12).trans ?_
  rw [FoldValue.final12 (V1 m ρ) c, V1_v1, V1_v3, V1_v5]
theorem V2_v13_1 (c : Dev nD) : V2 m ρ c main_v13_1 = ak m c := by
  refine (W2_arr m ρ c 13).trans ?_
  rw [FoldValue.final13 (V1 m ρ) c, V1_v2, V1_v3, V1_v4, V1_v5, V1_v6]
theorem V2_v13_2 (c : Dev nD) : V2 m ρ c main_v13_2 = Ck m c := by
  refine (W2_arr m ρ c 14).trans ?_
  rw [FoldValue.final14 (V1 m ρ) c, V1_v7, V1_v9, V1_v11]
theorem V2_v13_3 (c : Dev nD) : V2 m ρ c main_v13_3 = dk m c := by
  refine (W2_arr m ρ c 15).trans ?_
  rw [FoldValue.final15 (V1 m ρ) c, V1_v8, V1_v9, V1_v10, V1_v11, V1_v12]
theorem V2_v0 (c : Dev nD) : V2 m ρ c main_v0 = xfV m c :=
  (W2_of_ne m ρ c main_v0 (by decide)).trans (V1_v0 m ρ c)
theorem V2_arg13 (c : Dev nD) : V2 m ρ c main_arg13 = eV m c :=
  (W2_of_ne m ρ c main_arg13 (by decide)).trans (V1_arg13 m ρ c)

/-! ## The three results -/

/-- The mean of every row. -/
abbrev G0 (c : Dev nD) : A2 16384 1 := outMean (xfV m c) (Mk m c) (ak m c)
/-- The exponential of every row's second component. -/
abbrev G1 (c : Dev nD) : A2 16384 1 := outStd (xfV m c) (Mk m c) (ak m c)
/-- The decoded rows, 16384 × 220. -/
abbrev G2 (c : Dev nD) : A2 16384 220 := outProd (xfV m c) (eV m c) (Mk m c) (ak m c) (Ck m c) (dk m c)
/-- The decoded rows laid out as 16384 × 20 × 11. -/
abbrev G2r (c : Dev nD) : S16384x20x11.Idx → EReal := shapeCast S16384x20x11 (G2 m c) shapeCasts_S16384x220_S16384x20x11

theorem W3_v14_0 (c : Dev nD) : W3 m ρ c (Proc.devRef .tc main_v14_0) = G0 m c := by
  refine (W3_arr m ρ c 6).trans ?_
  rw [MainValue.final6 (V2 m ρ) c, V2_v0, V2_v13_0, V2_v13_1]
theorem W3_v14_1 (c : Dev nD) : W3 m ρ c (Proc.devRef .tc main_v14_1) = G1 m c := by
  refine (W3_arr m ρ c 7).trans ?_
  rw [MainValue.final7 (V2 m ρ) c, V2_v0, V2_v13_0, V2_v13_1]
theorem W3_v14_2 (c : Dev nD) : W3 m ρ c (Proc.devRef .tc main_v14_2) = G2 m c := by
  refine (W3_arr m ρ c 8).trans ?_
  rw [MainValue.final8 (V2 m ρ) c, V2_v0, V2_arg13, V2_v13_0, V2_v13_1, V2_v13_2, V2_v13_3]

theorem W4_v14_0 (c : Dev nD) : W4 m ρ c (Proc.devRef .tc main_v14_0) = G0 m c := by
  refine Eq.trans ?_ (W3_v14_0 m ρ c)
  show StableHlo.after hostOps2 (W3 m ρ c) (Proc.devRef .tc main_v14_0) = _
  after_results
theorem W4_v14_1 (c : Dev nD) : W4 m ρ c (Proc.devRef .tc main_v14_1) = G1 m c := by
  refine Eq.trans ?_ (W3_v14_1 m ρ c)
  show StableHlo.after hostOps2 (W3 m ρ c) (Proc.devRef .tc main_v14_1) = _
  after_results
theorem W4_v15 (c : Dev nD) : W4 m ρ c (Proc.devRef .tc main_v15) = G2r m c := by
  have h : W4 m ρ c (Proc.devRef .tc main_v15)
      = shapeCast S16384x20x11 (W3 m ρ c (Proc.devRef .tc main_v14_2)) shapeCasts_S16384x220_S16384x20x11 := by
    show StableHlo.after hostOps2 (W3 m ρ c) (Proc.devRef .tc main_v15) = _
    after_results
    rfl
  rw [h, W3_v14_2]

/-! ## The run -/

/-- Every weakly fair execution of the idealized kernel program terminates without a fault, with its three results at
    the composed maps of the arguments and the arguments unchanged. -/
theorem run : θ_run defs (onTc (τ := τ) (main (F := Ideal))) ⟨m, fun _ => 0, ρ⟩ (fun r => ∀ c : Dev nD,
      r.2.mem ((c.tc : Thread nD τ).loc main_v14_0) = G0 m c
      ∧ r.2.mem ((c.tc : Thread nD τ).loc main_v14_1) = G1 m c
      ∧ r.2.mem ((c.tc : Thread nD τ).loc main_v15) = G2r m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W4_v14_0 m ρ c), (h c).2.1.trans (W4_v14_1 m ρ c),
      (h c).2.2.1.trans (W4_v15 m ρ c), (h c).2.2.2⟩) (run_named m ρ)

end Cert.KernelIdeal.KValue

end
-- ==== Proof.RefRead.lean ====
/-
  The reference read at an entry.

  Stage by stage, the reference's three results before its closing reshape are the three encoder layers applied in
  turn to a row of the flattened input (the activation between them has slope one, so choosing between x and 1 · x
  gives x at every extended real), the two columns of that, the sample mean + std · e, and the three decoder layers
  applied in turn to the sample.
-/
import proofs.«109162_g39084202394388_cont_8to1_b_76_2_alg».proof.Proof.RefStages
import proofs.«109162_g39084202394388_cont_8to1_b_76_2_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.ReadP Idealize.ShloMosaic Idealize.ShloMosaic.ValueIdx

variable (x0 : (⟨S16384x5x11, .f32⟩ : BufTy).Contents (Elt Ideal)) (x1 : (⟨S64x55, .f32⟩ : BufTy).Contents (Elt Ideal)) (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S2x64, .f32⟩ : BufTy).Contents (Elt Ideal)) (x6 : (⟨S2, .f32⟩ : BufTy).Contents (Elt Ideal)) (x7 : (⟨S128x1, .f32⟩ : BufTy).Contents (Elt Ideal)) (x8 : (⟨S128, .f32⟩ : BufTy).Contents (Elt Ideal))
  (x9 : (⟨S64x128, .f32⟩ : BufTy).Contents (Elt Ideal)) (x10 : (⟨S64, .f32⟩ : BufTy).Contents (Elt Ideal)) (x11 : (⟨S220x64, .f32⟩ : BufTy).Contents (Elt Ideal)) (x12 : (⟨S220, .f32⟩ : BufTy).Contents (Elt Ideal)) (x13 : (⟨S16384x1, .f32⟩ : BufTy).Contents (Elt Ideal))

/-- The reference's `z` at a row and a column, over the arrays the reference holds before its products. -/
abbrev refZ (b : Fin 16384) (n : Fin 2) : EReal :=
  Cert.Spec.seqZ (val_main_v0 (F := Ideal) x0) (val_main_v1 (F := Ideal) x1) (val_main_v3 (F := Ideal) x2)
    (val_main_v11 (F := Ideal) x3) (val_main_v13 (F := Ideal) x4) (val_main_v21 (F := Ideal) x5) (val_main_v23 (F := Ideal) x6) b n

/-! ## The activation of slope one is the identity -/

/-- Choosing between `x` and `1 · x` gives `x` whichever way the choice goes, at every extended real. -/
theorem select_one_mul (c : BitVec 1) (x : Ideal .f32) :
    Scalar.select c x (FloatOps.mulf (FloatOps.ofBits (F := Ideal) .f32 0x3F800000#32) x) = x := by
  unfold Scalar.select
  split
  · rfl
  · rw [Ideal.mulf_def, Ideal.ofBits_def, Ideal.ofBits_one_f32, one_mul]

/-- After the first layer the activation changes nothing. -/
theorem act1 : val_main_v10 (F := Ideal) x0 x1 x2 = val_main_v5 (F := Ideal) x0 x1 x2 := by
  funext i
  rw [val_main_v10_apply, val_main_v9_apply, val_main_v8_apply, val_main_cst_0_apply]
  exact select_one_mul _ _

/-- After the second layer the activation changes nothing. -/
theorem act2 : val_main_v20 (F := Ideal) x0 x1 x2 x3 x4 = val_main_v15 (F := Ideal) x0 x1 x2 x3 x4 := by
  funext i
  rw [val_main_v20_apply, val_main_v19_apply, val_main_v18_apply, val_main_cst_2_apply]
  exact select_one_mul _ _

/-- After the decoder's first layer the activation changes nothing. -/
theorem act3 : val_main_v39 (F := Ideal) x0 x1 x2 x3 x4 x5 x6 x7 x8 x13 = val_main_v34 (F := Ideal) x0 x1 x2 x3 x4 x5 x6 x7 x8 x13 := by
  funext i
  rw [val_main_v39_apply, val_main_v38_apply, val_main_v37_apply, val_main_cst_4_apply]
  exact select_one_mul _ _

/-- After the decoder's second layer the activation changes nothing. -/
theorem act4 : val_main_v49 (F := Ideal) x0 x1 x2 x3 x4 x5 x6 x7 x8 x9 x10 x13 = val_main_v44 (F := Ideal) x0 x1 x2 x3 x4 x5 x6 x7 x8 x9 x10 x13 := by
  funext i
  rw [val_main_v49_apply, val_main_v48_apply, val_main_v47_apply, val_main_cst_6_apply]
  exact select_one_mul _ _

/-! ## The encoder, layer by layer -/

/-- The first layer's output at row `b`, column `j`. -/
theorem layer1_at (b : Fin 16384) (j : Fin 64) :
    val_main_v5 (F := Ideal) x0 x1 x2 (ix2 b j)
      = (∑ i : Fin 55, val_main_v0 (F := Ideal) x0 (ix2 b i) * val_main_v1 (F := Ideal) x1 (ix2 i j))
        + val_main_v3 (F := Ideal) x2 (ix2 (0 : Fin 1) j) := by
  have el : ∀ i : Fin 55, lidx_main_v2 (ix2 b j) i = ix2 b i := fun i => funext fun a => Fin.ext (by match a with | ⟨0, _⟩ => rfl | ⟨1, _⟩ => rfl)
  have er : ∀ i : Fin 55, ridx_main_v2 (ix2 b j) i = ix2 i j := fun i => funext fun a => Fin.ext (by match a with | ⟨0, _⟩ => rfl | ⟨1, _⟩ => rfl)
  have eb : idx_main_v4 (ix2 b j) = ix2 (0 : Fin 1) j := funext fun a => Fin.ext (by match a with | ⟨0, _⟩ => rfl | ⟨1, _⟩ => rfl)
  rw [val_main_v5_apply, val_main_v2_apply, val_main_v4_apply, Ideal.addf_def, eb]
  simp only [el, er]

/-- The second layer's output at row `b`, column `k`. -/
theorem layer2_at (b : Fin 16384) (k : Fin 64) :
    val_main_v15 (F := Ideal) x0 x1 x2 x3 x4 (ix2 b k)
      = (∑ j : Fin 64, val_main_v5 (F := Ideal) x0 x1 x2 (ix2 b j) * val_main_v11 (F := Ideal) x3 (ix2 j k))
        + val_main_v13 (F := Ideal) x4 (ix2 (0 : Fin 1) k) := by
  have el : ∀ j : Fin 64, lidx_main_v12 (ix2 b k) j = ix2 b j := fun j => funext fun a => Fin.ext (by match a with | ⟨0, _⟩ => rfl | ⟨1, _⟩ => rfl)
  have er : ∀ j : Fin 64, ridx_main_v12 (ix2 b k) j = ix2 j k := fun j => funext fun a => Fin.ext (by match a with | ⟨0, _⟩ => rfl | ⟨1, _⟩ => rfl)
  have eb : idx_main_v14 (ix2 b k) = ix2 (0 : Fin 1) k := funext fun a => Fin.ext (by match a with | ⟨0, _⟩ => rfl | ⟨1, _⟩ => rfl)
  rw [val_main_v15_apply, val_main_v12_apply, val_main_v14_apply, Ideal.addf_def, eb, act1]
  simp only [el, er]

/-- The third layer's output `z` at row `b`, column `n`. -/
theorem layer3_at (b : Fin 16384) (n : Fin 2) :
    val_main_v25 (F := Ideal) x0 x1 x2 x3 x4 x5 x6 (ix2 b n)
      = (∑ k : Fin 64, val_main_v15 (F := Ideal) x0 x1 x2 x3 x4 (ix2 b k) * val_main_v21 (F := Ideal) x5 (ix2 k n))
        + val_main_v23 (F := Ideal) x6 (ix2 (0 : Fin 1) n) := by
  have el : ∀ k : Fin 64, lidx_main_v22 (ix2 b n) k = ix2 b k := fun k => funext fun a => Fin.ext (by match a with | ⟨0, _⟩ => rfl | ⟨1, _⟩ => rfl)
  have er : ∀ k : Fin 64, ridx_main_v22 (ix2 b n) k = ix2 k n := fun k => funext fun a => Fin.ext (by match a with | ⟨0, _⟩ => rfl | ⟨1, _⟩ => rfl)
  have eb : idx_main_v24 (ix2 b n) = ix2 (0 : Fin 1) n := funext fun a => Fin.ext (by match a with | ⟨0, _⟩ => rfl | ⟨1, _⟩ => rfl)
  rw [val_main_v25_apply, val_main_v22_apply, val_main_v24_apply, Ideal.addf_def, eb, act2]
  simp only [el, er]

/-- The reference's `z` is the three layers applied one after the other. -/
theorem z_at (b : Fin 16384) (n : Fin 2) :
    val_main_v25 (F := Ideal) x0 x1 x2 x3 x4 x5 x6 (ix2 b n) = refZ x0 x1 x2 x3 x4 x5 x6 b n := by
  rw [layer3_at]
  simp only [layer2_at, layer1_at]
  rfl

/-! ## The two columns of `z` and the sample -/

/-- The first slice is column 0 of `z`. -/
theorem mean_at (b : Fin 16384) (q : Fin 1) :
    val_main_v26 (F := Ideal) x0 x1 x2 x3 x4 x5 x6 (ix2 b q) = refZ x0 x1 x2 x3 x4 x5 x6 b 0 := by
  obtain rfl : q = 0 := Subsingleton.elim _ _
  have e : idx_main_v26 (ix2 b (0 : Fin 1)) = ix2 b (0 : Fin 2) := funext fun a => Fin.ext (by match a with | ⟨0, _⟩ => rfl | ⟨1, _⟩ => rfl)
  rw [val_main_v26_apply, e, z_at]

/-- The second slice is column 1 of `z`. -/
theorem std_at (b : Fin 16384) (q : Fin 1) :
    val_main_v27 (F := Ideal) x0 x1 x2 x3 x4 x5 x6 (ix2 b q) = refZ x0 x1 x2 x3 x4 x5 x6 b 1 := by
  obtain rfl : q = 0 := Subsingleton.elim _ _
  have e : idx_main_v27 (ix2 b (0 : Fin 1)) = ix2 b (1 : Fin 2) := funext fun a => Fin.ext (by match a with | ⟨0, _⟩ => rfl | ⟨1, _⟩ => rfl)
  rw [val_main_v27_apply, e, z_at]

/-- The sample `z₀ + z₁ · e` of a row. -/
theorem sample_at (b : Fin 16384) (q : Fin 1) :
    val_main_v29 (F := Ideal) x0 x1 x2 x3 x4 x5 x6 x13 (ix2 b q)
      = refZ x0 x1 x2 x3 x4 x5 x6 b 0 + refZ x0 x1 x2 x3 x4 x5 x6 b 1 * x13 (ix2 b 0) := by
  obtain rfl : q = 0 := Subsingleton.elim _ _
  rw [val_main_v29_apply, val_main_v28_apply, mean_at, std_at, Ideal.addf_def, Ideal.mulf_def]

/-! ## The decoder, layer by layer -/

/-- The decoder's first layer at row `b`, column `j`: the contraction runs over the sample's one entry. -/
theorem dec1_at (b : Fin 16384) (j : Fin 128) :
    val_main_v34 (F := Ideal) x0 x1 x2 x3 x4 x5 x6 x7 x8 x13 (ix2 b j)
      = (∑ i : Fin 1, (refZ x0 x1 x2 x3 x4 x5 x6 b 0 + refZ x0 x1 x2 x3 x4 x5 x6 b 1 * x13 (ix2 b 0)) * val_main_v30 (F := Ideal) x7 (ix2 i j))
        + val_main_v32 (F := Ideal) x8 (ix2 (0 : Fin 1) j) := by
  have el : ∀ i : Fin 1, lidx_main_v31 (ix2 b j) i = ix2 b i := fun i => funext fun a => Fin.ext (by match a with | ⟨0, _⟩ => rfl | ⟨1, _⟩ => rfl)
  have er : ∀ i : Fin 1, ridx_main_v31 (ix2 b j) i = ix2 i j := fun i => funext fun a => Fin.ext (by match a with | ⟨0, _⟩ => rfl | ⟨1, _⟩ => rfl)
  have eb : idx_main_v33 (ix2 b j) = ix2 (0 : Fin 1) j := funext fun a => Fin.ext (by match a with | ⟨0, _⟩ => rfl | ⟨1, _⟩ => rfl)
  rw [val_main_v34_apply, val_main_v31_apply, val_main_v33_apply, Ideal.addf_def, eb]
  simp only [el, er, sample_at]

/-- The decoder's second layer at row `b`, column `k`. -/
theorem dec2_at (b : Fin 16384) (k : Fin 64) :
    val_main_v44 (F := Ideal) x0 x1 x2 x3 x4 x5 x6 x7 x8 x9 x10 x13 (ix2 b k)
      = (∑ j : Fin 128, val_main_v34 (F := Ideal) x0 x1 x2 x3 x4 x5 x6 x7 x8 x13 (ix2 b j) * val_main_v40 (F := Ideal) x9 (ix2 j k))
        + val_main_v42 (F := Ideal) x10 (ix2 (0 : Fin 1) k) := by
  have el : ∀ j : Fin 128, lidx_main_v41 (ix2 b k) j = ix2 b j := fun j => funext fun a => Fin.ext (by match a with | ⟨0, _⟩ => rfl | ⟨1, _⟩ => rfl)
  have er : ∀ j : Fin 128, ridx_main_v41 (ix2 b k) j = ix2 j k := fun j => funext fun a => Fin.ext (by match a with | ⟨0, _⟩ => rfl | ⟨1, _⟩ => rfl)
  have eb : idx_main_v43 (ix2 b k) = ix2 (0 : Fin 1) k := funext fun a => Fin.ext (by match a with | ⟨0, _⟩ => rfl | ⟨1, _⟩ => rfl)
  rw [val_main_v44_apply, val_main_v41_apply, val_main_v43_apply, Ideal.addf_def, eb, act3]
  simp only [el, er]

/-- The decoder's third layer at row `b`, column `o`. -/
theorem dec3_at (b : Fin 16384) (o : Fin 220) :
    val_main_v54 (F := Ideal) x0 x1 x2 x3 x4 x5 x6 x7 x8 x9 x10 x11 x12 x13 (ix2 b o)
      = (∑ k : Fin 64, val_main_v44 (F := Ideal) x0 x1 x2 x3 x4 x5 x6 x7 x8 x9 x10 x13 (ix2 b k) * val_main_v50 (F := Ideal) x11 (ix2 k o))
        + val_main_v52 (F := Ideal) x12 (ix2 (0 : Fin 1) o) := by
  have el : ∀ k : Fin 64, lidx_main_v51 (ix2 b o) k = ix2 b k := fun k => funext fun a => Fin.ext (by match a with | ⟨0, _⟩ => rfl | ⟨1, _⟩ => rfl)
  have er : ∀ k : Fin 64, ridx_main_v51 (ix2 b o) k = ix2 k o := fun k => funext fun a => Fin.ext (by match a with | ⟨0, _⟩ => rfl | ⟨1, _⟩ => rfl)
  have eb : idx_main_v53 (ix2 b o) = ix2 (0 : Fin 1) o := funext fun a => Fin.ext (by match a with | ⟨0, _⟩ => rfl | ⟨1, _⟩ => rfl)
  rw [val_main_v54_apply, val_main_v51_apply, val_main_v53_apply, Ideal.addf_def, eb, act4]
  simp only [el, er]

/-- The decoded row is the decoder's three layers applied one after the other to the sample. -/
theorem prod_at (b : Fin 16384) (o : Fin 220) :
    val_main_v54 (F := Ideal) x0 x1 x2 x3 x4 x5 x6 x7 x8 x9 x10 x11 x12 x13 (ix2 b o)
      = Cert.Spec.seqP (fun _ => refZ x0 x1 x2 x3 x4 x5 x6 b 0 + refZ x0 x1 x2 x3 x4 x5 x6 b 1 * x13 (ix2 b 0))
          (val_main_v30 (F := Ideal) x7) (val_main_v32 (F := Ideal) x8) (val_main_v40 (F := Ideal) x9)
          (val_main_v42 (F := Ideal) x10) (val_main_v50 (F := Ideal) x11) (val_main_v52 (F := Ideal) x12) o := by
  rw [dec3_at]
  simp only [dec2_at, dec1_at]
  rfl

/-! ## The three results -/

theorem ref_mean :
    val_main_v26 (F := Ideal) x0 x1 x2 x3 x4 x5 x6 = fun y => refZ x0 x1 x2 x3 x4 x5 x6 (y 0) 0 := by
  funext y
  obtain ⟨b, q, rfl⟩ : ∃ (b : Fin 16384) (q : Fin 1), y = ix2 b q := ⟨y 0, y 1, eq_ix2 y⟩
  exact mean_at x0 x1 x2 x3 x4 x5 x6 b q

theorem ref_std :
    val_main_v56 (F := Ideal) x0 x1 x2 x3 x4 x5 x6 = fun y => Ideal.exp (refZ x0 x1 x2 x3 x4 x5 x6 (y 0) 1) := by
  funext y
  obtain ⟨b, q, rfl⟩ : ∃ (b : Fin 16384) (q : Fin 1), y = ix2 b q := ⟨y 0, y 1, eq_ix2 y⟩
  rw [val_main_v56_apply, Ideal.hostUnary_exp_def, std_at]

theorem ref_prod :
    val_main_v54 (F := Ideal) x0 x1 x2 x3 x4 x5 x6 x7 x8 x9 x10 x11 x12 x13 = fun y =>
      Cert.Spec.seqP (fun _ => refZ x0 x1 x2 x3 x4 x5 x6 (y 0) 0 + refZ x0 x1 x2 x3 x4 x5 x6 (y 0) 1 * x13 (ix2 (y 0) 0))
        (val_main_v30 (F := Ideal) x7) (val_main_v32 (F := Ideal) x8) (val_main_v40 (F := Ideal) x9)
        (val_main_v42 (F := Ideal) x10) (val_main_v50 (F := Ideal) x11) (val_main_v52 (F := Ideal) x12) (y 1) := by
  funext y
  obtain ⟨b, o, rfl⟩ : ∃ (b : Fin 16384) (o : Fin 220), y = ix2 b o := ⟨y 0, y 1, eq_ix2 y⟩
  exact prod_at x0 x1 x2 x3 x4 x5 x6 x7 x8 x9 x10 x11 x12 x13 b o

end Cert.ReferenceIdeal.RefValue

end
-- ==== Proof.Algebra.lean ====
/-
  The algebra that joins the two programs, on the reals and then on the extended reals.

  Both programs compute compositions of affine maps. One of them applies the maps one after the other to a
  vector `x`: `x ↦ x·P + q`, then `· ↦ ·Q + r`, then `· ↦ ·w + u`. The other first composes the weights — the
  matrix `(P·Q)·w` and the offset `(q·Q + r)·w + u` — and applies the composite once. Over a commutative semiring
  the two agree by distributivity and an exchange of finite sums (`affine_step`, `affine_chain`). The extended
  reals are not a semiring (distributivity fails at the infinities), so the identity is proved on the reals and
  carried to extended reals that are casts of reals (`affine_chain_ereal`): sums and products of casts are the
  casts of the sums and products.
-/
import Idealize.ShloMosaic.PureOps.Ideal.Laws

namespace Cert.Affine

open Finset

/-- The cast of the reals into the extended reals commutes with finite sums. -/
@[norm_cast]
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One affine layer followed by a linear functional: `Σ_j (Σ_i x_i P_ji + q_j) R_j` is the functional of the
    composed weights applied to `x`, plus the functional of the offset. -/
theorem affine_step {ι J : Type*} [Fintype ι] [Fintype J] (x : ι → ℝ) (P : J → ι → ℝ) (q R : J → ℝ) :
    ∑ j, ((∑ i, x i * P j i) + q j) * R j = (∑ i, x i * ∑ j, P j i * R j) + ∑ j, q j * R j := by
  simp only [add_mul, Finset.sum_add_distrib, Finset.sum_mul, Finset.mul_sum]
  congr 1
  rw [Finset.sum_comm]
  exact Finset.sum_congr rfl fun i _ => Finset.sum_congr rfl fun j _ => by ring

/-- Three affine layers applied one after the other equal the composed weights applied once. -/
theorem affine_chain {ι J K : Type*} [Fintype ι] [Fintype J] [Fintype K]
    (x : ι → ℝ) (P : J → ι → ℝ) (q : J → ℝ) (Q : K → J → ℝ) (r w : K → ℝ) (u : ℝ) :
    (∑ k, ((∑ j, ((∑ i, x i * P j i) + q j) * Q k j) + r k) * w k) + u
      = (∑ i, x i * ∑ k, (∑ j, P j i * Q k j) * w k) + ((∑ k, ((∑ j, q j * Q k j) + r k) * w k) + u) := by
  have h1 : ∀ k, (∑ j, ((∑ i, x i * P j i) + q j) * Q k j) + r k
      = (∑ i, x i * ∑ j, P j i * Q k j) + ((∑ j, q j * Q k j) + r k) := fun k => by
    rw [affine_step, add_assoc]
  simp only [h1]
  refine (congrArg (· + u) (affine_step x (fun k i => ∑ j, P j i * Q k j) (fun k => (∑ j, q j * Q k j) + r k) w)).trans ?_
  exact add_assoc _ _ _

/-- The same identity between extended reals that are casts of reals. -/
theorem affine_chain_ereal {ι J K : Type*} [Fintype ι] [Fintype J] [Fintype K]
    (x : ι → ℝ) (P : J → ι → ℝ) (q : J → ℝ) (Q : K → J → ℝ) (r w : K → ℝ) (u : ℝ) :
    (∑ k, ((∑ j, ((∑ i, (x i : EReal) * (P j i : EReal)) + (q j : EReal)) * (Q k j : EReal)) + (r k : EReal)) * (w k : EReal)) + (u : EReal)
      = (∑ i, (x i : EReal) * ∑ k, (∑ j, (P j i : EReal) * (Q k j : EReal)) * (w k : EReal))
        + ((∑ k, ((∑ j, (q j : EReal) * (Q k j : EReal)) + (r k : EReal)) * (w k : EReal)) + (u : EReal)) := by
  exact_mod_cast affine_chain x P q Q r w u

/-- An extended real that is the cast of a real. -/
def IsReal (v : EReal) : Prop := ∃ r : ℝ, v = (r : EReal)

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An extended real with finite absolute value is the cast of a real. -/
theorem isReal_of_ne {v : EReal} (h1 : v ≠ ⊤) (h2 : v ≠ ⊥) : IsReal v :=
  ⟨v.toReal, (EReal.coe_toReal h1 h2).symm⟩

end Cert.Affine
-- ==== Proof.Bridge.lean ====
/-
  The two orders of computing agree on real arrays.

  Applying three affine layers one after the other to a row, and applying the composed weights and offset once, give
  the same extended real when every entry involved is the cast of a real: the identity holds on the reals by
  distributivity and an exchange of finite sums, and sums and products of casts are casts. The same holds for the
  decoder applied to the one-entry row made of the sample, and so for the three results as whole arrays.
-/
import proofs.«109162_g39084202394388_cont_8to1_b_76_2_alg».proof.Proof.Spec
import proofs.«109162_g39084202394388_cont_8to1_b_76_2_alg».proof.Proof.Algebra

noncomputable section

namespace Cert.Bridge

open Idealize.ShloMosaic Idealize.ShloMosaic.ValueIdx Cert.Spec Cert.Affine

/-- Every entry of a matrix is the cast of a real. -/
def RealArr {a b : Nat} (A : A2 a b) : Prop := ∀ i, IsReal (A i)

/-- Real witnesses for a matrix of casts: a real matrix whose entrywise cast it is. -/
theorem RealArr.exists_real {a b : Nat} {A : A2 a b} (h : RealArr A) :
    ∃ r : (⟨2, ![a, b]⟩ : Shape).Idx → ℝ, ∀ i, A i = (r i : EReal) := by
  have h' : ∀ i, ∃ r : ℝ, A i = (r : EReal) := h
  choose r hr using h'
  exact ⟨r, hr⟩

/-- The first coordinate of an index built from its coordinates. -/
theorem ix2_c0 {n0 n1 : Nat} (a : Fin n0) (b : Fin n1) : (ix2 a b) 0 = a := rfl

/-- The second coordinate of an index built from its coordinates. -/
theorem ix2_c1 {n0 n1 : Nat} (a : Fin n0) (b : Fin n1) : (ix2 a b) 1 = b := rfl

variable {xf : A2 16384 55} {e : A2 16384 1}
  {W1T : A2 55 64} {b1r : A2 1 64} {W2T : A2 64 64} {b2r : A2 1 64} {W3T : A2 64 2} {b3r : A2 1 2}
  {R1T : A2 1 128} {c1r : A2 1 128} {R2T : A2 128 64} {c2r : A2 1 64} {R3T : A2 64 220} {c3r : A2 1 220}

/-- The encoder's three layers applied in turn are the composed map applied once. -/
theorem enc_eq (hxf : RealArr xf) (hW1 : RealArr W1T) (hb1 : RealArr b1r) (hW2 : RealArr W2T) (hb2 : RealArr b2r)
    (hW3 : RealArr W3T) (hb3 : RealArr b3r) (b : Fin 16384) (n : Fin 2) :
    seqZ xf W1T b1r W2T b2r W3T b3r b n = zrow xf (foldM W1T W2T W3T) (foldA b1r W2T b2r W3T b3r) b n := by
  obtain ⟨xr, hx⟩ := hxf.exists_real
  obtain ⟨W1r, h1⟩ := hW1.exists_real
  obtain ⟨b1rr, hq1⟩ := hb1.exists_real
  obtain ⟨W2r, h2⟩ := hW2.exists_real
  obtain ⟨b2rr, hq2⟩ := hb2.exists_real
  obtain ⟨W3r, h3⟩ := hW3.exists_real
  obtain ⟨b3rr, hq3⟩ := hb3.exists_real
  simp only [seqZ, zrow, foldM, foldA, ix2_c0, ix2_c1, hx, h1, hq1, h2, hq2, h3, hq3]
  exact affine_chain_ereal (fun i => xr (ix2 b i)) (fun j i => W1r (ix2 i j)) (fun j => b1rr (ix2 0 j))
    (fun k j => W2r (ix2 j k)) (fun k => b2rr (ix2 0 k)) (fun k => W3r (ix2 k n)) (b3rr (ix2 0 n))

/-- A row of `z` is real. -/
theorem zrow_real (hxf : RealArr xf) (hW1 : RealArr W1T) (hb1 : RealArr b1r) (hW2 : RealArr W2T) (hb2 : RealArr b2r)
    (hW3 : RealArr W3T) (hb3 : RealArr b3r) (b : Fin 16384) (n : Fin 2) :
    IsReal (zrow xf (foldM W1T W2T W3T) (foldA b1r W2T b2r W3T b3r) b n) := by
  unfold zrow foldM foldA
  refine IsReal.add (IsReal.sum _ fun i _ => (hxf _).mul ?_) ?_
  · exact IsReal.sum _ fun k _ => (IsReal.sum _ fun j _ => (hW1 _).mul (hW2 _)).mul (hW3 _)
  · exact (IsReal.sum _ fun k _ =>
      ((IsReal.sum _ fun j _ => (hb1 _).mul (hW2 _)).add (hb2 _)).mul (hW3 _)).add (hb3 _)

/-- The decoder's three layers applied in turn to a one-entry row are the composed map applied once. -/
theorem dec_eq {s : EReal} (hs : IsReal s) (hR1 : RealArr R1T) (hc1 : RealArr c1r) (hR2 : RealArr R2T) (hc2 : RealArr c2r)
    (hR3 : RealArr R3T) (hc3 : RealArr c3r) (o : Fin 220) :
    seqP (fun _ => s) R1T c1r R2T c2r R3T c3r o
      = s * foldC R1T R2T R3T (ix2 0 o) + foldD c1r R2T c2r R3T c3r (ix2 0 o) := by
  obtain ⟨sr, rfl⟩ := hs
  obtain ⟨R1r, h1⟩ := hR1.exists_real
  obtain ⟨c1rr, hq1⟩ := hc1.exists_real
  obtain ⟨R2r, h2⟩ := hR2.exists_real
  obtain ⟨c2rr, hq2⟩ := hc2.exists_real
  obtain ⟨R3r, h3⟩ := hR3.exists_real
  obtain ⟨c3rr, hq3⟩ := hc3.exists_real
  simp only [seqP, foldC, foldD, ix2_c0, ix2_c1, h1, hq1, h2, hq2, h3, hq3]
  refine (affine_chain_ereal (fun _ : Fin 1 => sr) (fun j i => R1r (ix2 i j)) (fun j => c1rr (ix2 0 j))
    (fun k j => R2r (ix2 j k)) (fun k => c2rr (ix2 0 k)) (fun k => R3r (ix2 k o)) (c3rr (ix2 0 o))).trans ?_
  rw [Fin.sum_univ_one]

/-- The mean, as the reference orders it and as the kernel orders it. -/
theorem mean_eq (hxf : RealArr xf) (hW1 : RealArr W1T) (hb1 : RealArr b1r) (hW2 : RealArr W2T) (hb2 : RealArr b2r)
    (hW3 : RealArr W3T) (hb3 : RealArr b3r) :
    (fun y : (⟨2, ![16384, 1]⟩ : Shape).Idx => seqZ xf W1T b1r W2T b2r W3T b3r (y 0) 0)
      = outMean xf (foldM W1T W2T W3T) (foldA b1r W2T b2r W3T b3r) := by
  funext y
  exact enc_eq hxf hW1 hb1 hW2 hb2 hW3 hb3 (y 0) 0

/-- The exponential of the second column, in both orders. -/
theorem std_eq (hxf : RealArr xf) (hW1 : RealArr W1T) (hb1 : RealArr b1r) (hW2 : RealArr W2T) (hb2 : RealArr b2r)
    (hW3 : RealArr W3T) (hb3 : RealArr b3r) :
    (fun y : (⟨2, ![16384, 1]⟩ : Shape).Idx => Ideal.exp (seqZ xf W1T b1r W2T b2r W3T b3r (y 0) 1))
      = outStd xf (foldM W1T W2T W3T) (foldA b1r W2T b2r W3T b3r) := by
  funext y
  show Ideal.exp (seqZ xf W1T b1r W2T b2r W3T b3r (y 0) 1)
    = Ideal.exp (zrow xf (foldM W1T W2T W3T) (foldA b1r W2T b2r W3T b3r) (y 0) 1)
  rw [enc_eq hxf hW1 hb1 hW2 hb2 hW3 hb3 (y 0) 1]

/-- The decoded rows, in both orders. -/
theorem prod_eq (hxf : RealArr xf) (he : RealArr e) (hW1 : RealArr W1T) (hb1 : RealArr b1r) (hW2 : RealArr W2T)
    (hb2 : RealArr b2r) (hW3 : RealArr W3T) (hb3 : RealArr b3r) (hR1 : RealArr R1T) (hc1 : RealArr c1r)
    (hR2 : RealArr R2T) (hc2 : RealArr c2r) (hR3 : RealArr R3T) (hc3 : RealArr c3r) :
    (fun y : (⟨2, ![16384, 220]⟩ : Shape).Idx =>
        seqP (fun _ => seqZ xf W1T b1r W2T b2r W3T b3r (y 0) 0 + seqZ xf W1T b1r W2T b2r W3T b3r (y 0) 1 * e (ix2 (y 0) 0))
          R1T c1r R2T c2r R3T c3r (y 1))
      = outProd xf e (foldM W1T W2T W3T) (foldA b1r W2T b2r W3T b3r) (foldC R1T R2T R3T) (foldD c1r R2T c2r R3T c3r) := by
  funext y
  rw [enc_eq hxf hW1 hb1 hW2 hb2 hW3 hb3 (y 0) 0, enc_eq hxf hW1 hb1 hW2 hb2 hW3 hb3 (y 0) 1]
  exact dec_eq ((zrow_real hxf hW1 hb1 hW2 hb2 hW3 hb3 (y 0) 0).add
    ((zrow_real hxf hW1 hb1 hW2 hb2 hW3 hb3 (y 0) 1).mul (he _))) hR1 hc1 hR2 hc2 hR3 hc3 (y 1)

end Cert.Bridge

end
-- ==== Proof.RefViews.lean ====
/-
  The reference's three results, over real inputs, in the composed form.

  The reference applies its layers to arrays it builds from the arguments by a reshape, transposes and one-row
  broadcasts; each entry of such an array is an entry of the argument it is built from, so real arguments give
  real arrays. Over real arrays the layers applied in turn equal the composed weights applied once.
-/
import proofs.«109162_g39084202394388_cont_8to1_b_76_2_alg».proof.Proof.RefRead
import proofs.«109162_g39084202394388_cont_8to1_b_76_2_alg».proof.Proof.Bridge

set_option maxRecDepth 16384

noncomputable section

namespace Cert.ReferenceIdeal.RefViews

open Cert.ReferenceIdeal Cert.ReferenceIdeal.Gen Cert.ReferenceIdeal.ReadP Idealize.ShloMosaic Idealize.ShloMosaic.ValueIdx
open Cert.Spec Cert.Bridge Cert.Affine

variable {x0 : (⟨S16384x5x11, .f32⟩ : BufTy).Contents (Elt Ideal)} {x1 : (⟨S64x55, .f32⟩ : BufTy).Contents (Elt Ideal)} {x2 : (⟨S64, .f32⟩ : BufTy).Contents (Elt Ideal)} {x3 : (⟨S64x64, .f32⟩ : BufTy).Contents (Elt Ideal)}
  {x4 : (⟨S64, .f32⟩ : BufTy).Contents (Elt Ideal)} {x5 : (⟨S2x64, .f32⟩ : BufTy).Contents (Elt Ideal)} {x6 : (⟨S2, .f32⟩ : BufTy).Contents (Elt Ideal)} {x7 : (⟨S128x1, .f32⟩ : BufTy).Contents (Elt Ideal)} {x8 : (⟨S128, .f32⟩ : BufTy).Contents (Elt Ideal)}
  {x9 : (⟨S64x128, .f32⟩ : BufTy).Contents (Elt Ideal)} {x10 : (⟨S64, .f32⟩ : BufTy).Contents (Elt Ideal)} {x11 : (⟨S220x64, .f32⟩ : BufTy).Contents (Elt Ideal)} {x12 : (⟨S220, .f32⟩ : BufTy).Contents (Elt Ideal)} {x13 : (⟨S16384x1, .f32⟩ : BufTy).Contents (Elt Ideal)}

/-! ## Arrays built from real arguments are real -/

theorem real_v0 (h : ∀ i, IsReal (x0 i)) : RealArr (a := 16384) (b := 55) (val_main_v0 (F := Ideal) x0) :=
  fun i => by rw [val_main_v0_apply]; exact h _
theorem real_v1 (h : ∀ i, IsReal (x1 i)) : RealArr (a := 55) (b := 64) (val_main_v1 (F := Ideal) x1) :=
  fun i => by rw [val_main_v1_apply]; exact h _
theorem real_v3 (h : ∀ i, IsReal (x2 i)) : RealArr (a := 1) (b := 64) (val_main_v3 (F := Ideal) x2) :=
  fun i => by rw [val_main_v3_apply]; exact h _
theorem real_v11 (h : ∀ i, IsReal (x3 i)) : RealArr (a := 64) (b := 64) (val_main_v11 (F := Ideal) x3) :=
  fun i => by rw [val_main_v11_apply]; exact h _
theorem real_v13 (h : ∀ i, IsReal (x4 i)) : RealArr (a := 1) (b := 64) (val_main_v13 (F := Ideal) x4) :=
  fun i => by rw [val_main_v13_apply]; exact h _
theorem real_v21 (h : ∀ i, IsReal (x5 i)) : RealArr (a := 64) (b := 2) (val_main_v21 (F := Ideal) x5) :=
  fun i => by rw [val_main_v21_apply]; exact h _
theorem real_v23 (h : ∀ i, IsReal (x6 i)) : RealArr (a := 1) (b := 2) (val_main_v23 (F := Ideal) x6) :=
  fun i => by rw [val_main_v23_apply]; exact h _
theorem real_v30 (h : ∀ i, IsReal (x7 i)) : RealArr (a := 1) (b := 128) (val_main_v30 (F := Ideal) x7) :=
  fun i => by rw [val_main_v30_apply]; exact h _
theorem real_v32 (h : ∀ i, IsReal (x8 i)) : RealArr (a := 1) (b := 128) (val_main_v32 (F := Ideal) x8) :=
  fun i => by rw [val_main_v32_apply]; exact h _
theorem real_v40 (h : ∀ i, IsReal (x9 i)) : RealArr (a := 128) (b := 64) (val_main_v40 (F := Ideal) x9) :=
  fun i => by rw [val_main_v40_apply]; exact h _
theorem real_v42 (h : ∀ i, IsReal (x10 i)) : RealArr (a := 1) (b := 64) (val_main_v42 (F := Ideal) x10) :=
  fun i => by rw [val_main_v42_apply]; exact h _
theorem real_v50 (h : ∀ i, IsReal (x11 i)) : RealArr (a := 64) (b := 220) (val_main_v50 (F := Ideal) x11) :=
  fun i => by rw [val_main_v50_apply]; exact h _
theorem real_v52 (h : ∀ i, IsReal (x12 i)) : RealArr (a := 1) (b := 220) (val_main_v52 (F := Ideal) x12) :=
  fun i => by rw [val_main_v52_apply]; exact h _

/-! ## The three results in the composed form -/

/-- The composed encoder weights of the reference's arrays. -/
abbrev Mr (x1 : (⟨S64x55, .f32⟩ : BufTy).Contents (Elt Ideal)) (x3 : (⟨S64x64, .f32⟩ : BufTy).Contents (Elt Ideal)) (x5 : (⟨S2x64, .f32⟩ : BufTy).Contents (Elt Ideal)) : A2 55 2 :=
  foldM (val_main_v1 (F := Ideal) x1) (val_main_v11 (F := Ideal) x3) (val_main_v21 (F := Ideal) x5)
/-- The composed encoder offset of the reference's arrays. -/
abbrev ar (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S2x64, .f32⟩ : BufTy).Contents (Elt Ideal)) (x6 : (⟨S2, .f32⟩ : BufTy).Contents (Elt Ideal)) : A2 1 2 :=
  foldA (val_main_v3 (F := Ideal) x2) (val_main_v11 (F := Ideal) x3) (val_main_v13 (F := Ideal) x4) (val_main_v21 (F := Ideal) x5)
    (val_main_v23 (F := Ideal) x6)

theorem out_mean (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    val_main_v26 (F := Ideal) x0 x1 x2 x3 x4 x5 x6
      = outMean (val_main_v0 (F := Ideal) x0) (Mr x1 x3 x5) (ar x2 x3 x4 x5 x6) :=
  (RefValue.ref_mean x0 x1 x2 x3 x4 x5 x6).trans
    (mean_eq (real_v0 h0) (real_v1 h1) (real_v3 h2) (real_v11 h3) (real_v13 h4) (real_v21 h5) (real_v23 h6))

theorem out_std (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    val_main_v56 (F := Ideal) x0 x1 x2 x3 x4 x5 x6
      = outStd (val_main_v0 (F := Ideal) x0) (Mr x1 x3 x5) (ar x2 x3 x4 x5 x6) :=
  (RefValue.ref_std x0 x1 x2 x3 x4 x5 x6).trans
    (std_eq (real_v0 h0) (real_v1 h1) (real_v3 h2) (real_v11 h3) (real_v13 h4) (real_v21 h5) (real_v23 h6))

theorem out_prod (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i)) (h11 : ∀ i, IsReal (x11 i))
    (h12 : ∀ i, IsReal (x12 i)) (h13 : ∀ i, IsReal (x13 i)) :
    val_main_v54 (F := Ideal) x0 x1 x2 x3 x4 x5 x6 x7 x8 x9 x10 x11 x12 x13
      = outProd (val_main_v0 (F := Ideal) x0) x13 (Mr x1 x3 x5) (ar x2 x3 x4 x5 x6)
          (foldC (val_main_v30 (F := Ideal) x7) (val_main_v40 (F := Ideal) x9) (val_main_v50 (F := Ideal) x11))
          (foldD (val_main_v32 (F := Ideal) x8) (val_main_v40 (F := Ideal) x9) (val_main_v42 (F := Ideal) x10)
            (val_main_v50 (F := Ideal) x11) (val_main_v52 (F := Ideal) x12)) :=
  (RefValue.ref_prod x0 x1 x2 x3 x4 x5 x6 x7 x8 x9 x10 x11 x12 x13).trans
    (prod_eq (e := x13) (real_v0 h0) h13 (real_v1 h1) (real_v3 h2) (real_v11 h3) (real_v13 h4) (real_v21 h5) (real_v23 h6)
      (real_v30 h7) (real_v32 h8) (real_v40 h9) (real_v42 h10) (real_v50 h11) (real_v52 h12))

end Cert.ReferenceIdeal.RefViews

end
-- ==== Proof.Finite.lean ====
/-
  The precondition makes every input entry real.

  The precondition is the conjunction, over the fourteen argument arrays, of "every entry's absolute value is below
  +∞". On the extended reals the absolute value max v (-v) is below ⊤ exactly when v is neither ⊤ nor ⊥, that is,
  when v is the cast of a real.
-/
import proofs.«109162_g39084202394388_cont_8to1_b_76_2_alg».proof.Pre_finite_inputs
import proofs.«109162_g39084202394388_cont_8to1_b_76_2_alg».proof.Proof.Gen.Pre_finite_inputs
import proofs.«109162_g39084202394388_cont_8to1_b_76_2_alg».proof.Proof.Algebra
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs Cert.Affine

/-- The scalar shape has one index. -/
instance : Subsingleton S_.Idx := ⟨fun a b => funext fun d => d.elim0⟩

/-- The pattern `0x7F800000` denotes `+∞`. -/
theorem inf_bits : (FloatOps.ofBits (F := Ideal) .f32 0x7F800000#32 : Ideal .f32) = (⊤ : EReal) := by
  show Ideal.ofBits .f32 0x7F800000#32 = _
  simp [Ideal.ofBits, Ideal.ieee]

/-- A one-bit word made from a Boolean is `1` only if the Boolean is true. -/
theorem ofBool_eq_one {b : Bool} (h : BitVec.ofBool b = 1#1) : b = true := by
  revert h; cases b <;> decide

/-- An extended real whose absolute value `max v (-v)` lies below `+∞` is the cast of a real:
    it is neither `⊤` (then `max v (-v) = ⊤`) nor `⊥` (then `-v = ⊤`). -/
theorem isReal_of_abs_lt (v : EReal) (h : max v (-v) < ⊤) : IsReal v := by
  refine isReal_of_ne ?_ ?_
  · rintro rfl; simp at h
  · rintro rfl; simp at h

/-- One array's conjunct: if `all (|a| < +∞)` came out true, every entry of `a` is the cast of a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1) :
    ∀ i, IsReal (a i) := by
  intro i
  have hi := Host.reduce_andi_all _ init hr hu j e i
  have h2 : Ideal.cmp .olt (max (a i) (-(a i))) (⊤ : EReal) = 1#1 := by
    rw [← inf_bits]; exact hi
  have h3 : BitVec.ofBool (decide (max (a i) (-(a i)) < (⊤ : EReal))) = 1#1 := h2
  exact isReal_of_abs_lt _ (of_decide_eq_true (ofBool_eq_one h3))

/-- A conjunction of two scalar truth values that is `1` has both conjuncts `1`. -/
theorem andi_split {x y : IVec S_ 1} {j : S_.Idx} (h : andi x y j = 1#1) : x j = 1#1 ∧ y j = 1#1 :=
  IntOp.andi_eq_one.1 h

/-- Under the precondition every entry of every argument is the cast of a real. -/
theorem real_of_fn [Cert.Pre_finite_inputs.Facts]
    (a0 : FVec Ideal S16384x5x11 .f32) (a1 : FVec Ideal S64x55 .f32) (a2 : FVec Ideal S64 .f32)
    (a3 : FVec Ideal S64x64 .f32) (a4 : FVec Ideal S64 .f32) (a5 : FVec Ideal S2x64 .f32) (a6 : FVec Ideal S2 .f32)
    (a7 : FVec Ideal S128x1 .f32) (a8 : FVec Ideal S128 .f32) (a9 : FVec Ideal S64x128 .f32) (a10 : FVec Ideal S64 .f32)
    (a11 : FVec Ideal S220x64 .f32) (a12 : FVec Ideal S220 .f32) (a13 : FVec Ideal S16384x1 .f32)
    (h : Cert.Pre_finite_inputs.fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) := by
  have h0 := congrFun h ValueIdx.ix0
  dsimp only [fn, fn_part1, fn_part2, fn_part3, fn_part4] at h0
  -- the fourteen conjuncts, peeled off the left-nested conjunction from the last to the first
  obtain ⟨h0, e13⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8,
    real_of_all a9 _ _ _ _ _ e9, real_of_all a10 _ _ _ _ _ e10, real_of_all a11 _ _ _ _ _ e11,
    real_of_all a12 _ _ _ _ _ e12, real_of_all a13 _ _ _ _ _ e13⟩

end Cert.Finite

end
-- ==== Proof.lean ====
/-
  The certificate of the variational recommender's forward pass: the kernel against its reference, over the reals.

  The reference applies an encoder of three affine layers to each flattened input row, takes the two components of
  the result as a mean and a log-scale, draws the sample `mean + std · e`, and applies a decoder of three affine
  layers to it; the activation between the layers has slope one on both sides of zero, so it is the identity on every
  extended real. The kernel composes the weights first — `M = (W1ᵀ W2ᵀ) W3ᵀ`, `a = (b1 W2ᵀ + b2) W3ᵀ + b3`,
  `C = (R1ᵀ R2ᵀ) R3ᵀ`, `d = (c1 R2ᵀ + c2) R3ᵀ + c3` in a first region — and applies the composed maps once per row
  in a second region over 32 blocks of 512 rows: `z = x M + a`, the mean `z₀`, `exp z₁`, `(z₀ + z₁ e) C + d`.
  The two agree by distributivity and the exchange of finite sums, which hold on the reals; the precondition makes
  every input entry real, and sums and products of reals stay real.

  The three frames: the two kernel programs' by their region-by-region runs, the reference's by its run read back.
  The idealization rewrote nothing, so the kernel's idealization claim is trivial. The value claim puts the kernel's
  run, with its three results read back through the program's boundaries to the composed maps of the arguments,
  beside the reference's run, whose results are the layers applied in turn to the same arrays.
-/
import proofs.«109162_g39084202394388_cont_8to1_b_76_2_alg».proof.Defs
import proofs.«109162_g39084202394388_cont_8to1_b_76_2_alg».proof.Proof.Gen.Kernel
import proofs.«109162_g39084202394388_cont_8to1_b_76_2_alg».proof.Proof.Gen.Kernel.Skeleton
import proofs.«109162_g39084202394388_cont_8to1_b_76_2_alg».proof.Proof.Gen.Kernel.Launch
import proofs.«109162_g39084202394388_cont_8to1_b_76_2_alg».proof.Proof.Gen.Kernel.Points
import proofs.«109162_g39084202394388_cont_8to1_b_76_2_alg».proof.Proof.Gen.Kernel.Frame
import proofs.«109162_g39084202394388_cont_8to1_b_76_2_alg».proof.Proof.Gen.KernelIdeal
import proofs.«109162_g39084202394388_cont_8to1_b_76_2_alg».proof.Proof.Gen.KernelIdeal.Skeleton
import proofs.«109162_g39084202394388_cont_8to1_b_76_2_alg».proof.Proof.Gen.KernelIdeal.Launch
import proofs.«109162_g39084202394388_cont_8to1_b_76_2_alg».proof.Proof.Gen.KernelIdeal.Points
import proofs.«109162_g39084202394388_cont_8to1_b_76_2_alg».proof.Proof.Gen.KernelIdeal.Frame
import proofs.«109162_g39084202394388_cont_8to1_b_76_2_alg».proof.Proof.Gen.ReferenceIdeal
import proofs.«109162_g39084202394388_cont_8to1_b_76_2_alg».proof.Proof.Gen.Pre_finite_inputs
import proofs.«109162_g39084202394388_cont_8to1_b_76_2_alg».proof.Proof.KValue
import proofs.«109162_g39084202394388_cont_8to1_b_76_2_alg».proof.Proof.RefRun
import proofs.«109162_g39084202394388_cont_8to1_b_76_2_alg».proof.Proof.RefViews
import proofs.«109162_g39084202394388_cont_8to1_b_76_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The reference's result terms are its last stages -/

set_option maxHeartbeats 16000000 in
theorem res26 (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v26 m c = Cert.ReferenceIdeal.ReadP.val_main_v26 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) := by
  unfold Cert.ReferenceIdeal.ValueP.res_main_v26; rfl

set_option maxHeartbeats 16000000 in
theorem res56 (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v56 m c = Cert.ReferenceIdeal.ReadP.val_main_v56 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) := by
  unfold Cert.ReferenceIdeal.ValueP.res_main_v56; rfl

set_option maxHeartbeats 16000000 in
theorem res55 (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v55 m c = Cert.ReferenceIdeal.ReadP.val_main_v55 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  unfold Cert.ReferenceIdeal.ValueP.res_main_v55; rfl

/-! ## A column of 128 entries read as a row: the reshape and the transpose agree -/

theorem row_of_column {α : Type} (x : (⟨2, ![128, 1]⟩ : Shape).Idx → α)
    (h : (⟨2, ![128, 1]⟩ : Shape).ShapeCasts ⟨2, ![1, 128]⟩)
    (h' : (⟨2, ![128, 1]⟩ : Shape).Transposes [1, 0] ⟨2, ![1, 128]⟩) :
    transpose ⟨2, ![1, 128]⟩ [1, 0] x h' = shapeCast ⟨2, ![1, 128]⟩ x h := by
  funext j
  rw [transpose_apply [1, 0] x h' j (ix2 (j 1) (j 0)) (fun b => match b with | ⟨0, _⟩ => rfl | ⟨1, _⟩ => rfl),
    shapeCast_apply x h j (ix2 (j 1) (j 0)) (by
      rw [Shape.rowMajor_val_two, Shape.rowMajor_val_two]
      show (j 1).val * 1 + (j 0).val = (j 0).val * 128 + (j 1).val
      have h0 : (j 0).val < 1 := (j 0).isLt
      omega)]

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories agreeing on the arguments, both programs run, and their three results agree entry by entry: the
    kernel's are the composed maps of the arguments; the reference's are the layers applied in turn, which over the
    real inputs the precondition grants are the same extended reals. -/
theorem algebraic : Cert.algebraic_KernelIdeal_ReferenceIdeal := by
  intro m ρ m' ρ' hpre hagree
  refine ⟨fun c => Cert.KernelIdeal.KValue.G0 m c, fun c => Cert.KernelIdeal.KValue.G1 m c,
    fun c => Cert.KernelIdeal.KValue.G2r m c,
    Cert.KernelIdeal.KValue.run m ρ, ?_⟩
  refine (θ_run Cert.ReferenceIdeal.defs _ _).mono (fun r h c => ?_) (Cert.ReferenceIdeal.ValueP.run (F := Ideal) m' ρ')
  obtain ⟨r0, r1, r2, rargs⟩ := h c
  obtain ⟨e0, e1, e2, e3, e4, e5, e6, e7, e8, e9, e10, e11, e12, e13⟩ := hagree c
  obtain ⟨q0, q1, q2, q3, q4, q5, q6, q7, q8, q9, q10, q11, q12, q13⟩ :=
    Cert.Finite.real_of_fn _ _ _ _ _ _ _ _ _ _ _ _ _ _ (hpre c)
  refine ⟨r0.trans ?_, r1.trans ?_, r2.trans ?_, rargs⟩
  · rw [res26 m' c, e0, e1, e2, e3, e4, e5, e6]
    exact Cert.ReferenceIdeal.RefViews.out_mean q0 q1 q2 q3 q4 q5 q6
  · rw [res56 m' c, e0, e1, e2, e3, e4, e5, e6]
    exact Cert.ReferenceIdeal.RefViews.out_std q0 q1 q2 q3 q4 q5 q6
  · rw [res55 m' c, e0, e1, e2, e3, e4, e5, e6, e7, e8, e9, e10, e11, e12, e13]
    unfold Cert.ReferenceIdeal.ReadP.val_main_v55
    rw [Cert.ReferenceIdeal.RefViews.out_prod q0 q1 q2 q3 q4 q5 q6 q7 q8 q9 q10 q11 q12 q13]
    have hrow : Cert.ReferenceIdeal.ReadP.val_main_v30 (F := Ideal) (m ((c.tc : Thread Cert.KernelIdeal.nD Cert.KernelIdeal.τ).loc Cert.KernelIdeal.main_arg7))
        = Cert.KernelIdeal.KValue.R1T m c :=
      row_of_column _ _ _
    rw [hrow]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
